-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1703936 : Shape := ⟨1, ![1703936]⟩
abbrev S1703936x1 : Shape := ⟨2, ![1703936, 1]⟩
abbrev S1703936x128 : Shape := ⟨2, ![1703936, 128]⟩
abbrev S8192x128 : Shape := ⟨2, ![8192, 128]⟩
abbrev S8192x1 : Shape := ⟨2, ![8192, 1]⟩
abbrev S1x128 : Shape := ⟨2, ![1, 128]⟩
abbrev S100000x64 : Shape := ⟨2, ![100000, 64]⟩
abbrev S10000x64 : Shape := ⟨2, ![10000, 64]⟩
abbrev S1703936x64 : Shape := ⟨2, ![1703936, 64]⟩
abbrev S8192x64 : Shape := ⟨2, ![8192, 64]⟩
abbrev S1x64 : Shape := ⟨2, ![1, 64]⟩

abbrev nBuf : Space → Nat
  | .hbm => 117
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S_, .i32⟩
  | .hbm, ⟨49, _⟩ => ⟨S1703936, .i32⟩
  | .hbm, ⟨50, _⟩ => ⟨S_, .i32⟩
  | .hbm, ⟨51, _⟩ => ⟨S_, .i32⟩
  | .hbm, ⟨52, _⟩ => ⟨S1703936, .i32⟩
  | .hbm, ⟨53, _⟩ => ⟨S_, .i32⟩
  | .hbm, ⟨54, _⟩ => ⟨S_, .f32⟩
  | .hbm, ⟨55, _⟩ => ⟨S1703936, .f32⟩
  | .hbm, ⟨56, _⟩ => ⟨S1703936x1, .f32⟩
  | .hbm, ⟨57, _⟩ => ⟨S_, .i32⟩
  | .hbm, ⟨58, _⟩ => ⟨S1703936, .i32⟩
  | .hbm, ⟨59, _⟩ => ⟨S1703936, .i1⟩
  | .hbm, ⟨60, _⟩ => ⟨S_, .i32⟩
  | .hbm, ⟨61, _⟩ => ⟨S1703936, .i32⟩
  | .hbm, ⟨62, _⟩ => ⟨S1703936, .i32⟩
  | .hbm, ⟨63, _⟩ => ⟨S1703936, .i32⟩
  | .hbm, ⟨64, _⟩ => ⟨S1703936x1, .i32⟩
  | .hbm, ⟨65, _⟩ => ⟨S1703936x128, .f32⟩
  | .hbm, ⟨66, _⟩ => ⟨S1703936x128, .f32⟩
  | .hbm, ⟨67, _⟩ => ⟨S_, .f32⟩
  | .hbm, ⟨68, _⟩ => ⟨S100000x128, .f32⟩
  | .hbm, ⟨69, _⟩ => ⟨S1703936x1, .i32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S_, .i32⟩
  | .hbm, ⟨94, _⟩ => ⟨S1703936, .i32⟩
  | .hbm, ⟨95, _⟩ => ⟨S_, .i32⟩
  | .hbm, ⟨96, _⟩ => ⟨S_, .i32⟩
  | .hbm, ⟨97, _⟩ => ⟨S1703936, .i32⟩
  | .hbm, ⟨98, _⟩ => ⟨S_, .i32⟩
  | .hbm, ⟨99, _⟩ => ⟨S_, .f32⟩
  | .hbm, ⟨100, _⟩ => ⟨S1703936, .f32⟩
  | .hbm, ⟨101, _⟩ => ⟨S1703936x1, .f32⟩
  | .hbm, ⟨102, _⟩ => ⟨S_, .i32⟩
  | .hbm, ⟨103, _⟩ => ⟨S1703936, .i32⟩
  | .hbm, ⟨104, _⟩ => ⟨S1703936, .i1⟩
  | .hbm, ⟨105, _⟩ => ⟨S_, .i32⟩
  | .hbm, ⟨106, _⟩ => ⟨S1703936, .i32⟩
  | .hbm, ⟨107, _⟩ => ⟨S1703936, .i32⟩
  | .hbm, ⟨108, _⟩ => ⟨S1703936, .i32⟩
  | .hbm, ⟨109, _⟩ => ⟨S1703936x1, .i32⟩
  | .hbm, ⟨110, _⟩ => ⟨S1703936x64, .f32⟩
  | .hbm, ⟨111, _⟩ => ⟨S1703936x64, .f32⟩
  | .hbm, ⟨112, _⟩ => ⟨S_, .f32⟩
  | .hbm, ⟨113, _⟩ => ⟨S100000x64, .f32⟩
  | .hbm, ⟨114, _⟩ => ⟨S1703936x1, .i32⟩
  | .hbm, ⟨115, _⟩ => ⟨S100000x64, .f32⟩
  | .hbm, ⟨116, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S8192x128, .f32⟩
  | .local _ .vmem, ⟨6, _⟩ => ⟨S8192x128, .f32⟩
  | .local _ .vmem, ⟨7, _⟩ => ⟨S8192x1, .f32⟩
  | .local _ .vmem, ⟨8, _⟩ => ⟨S8192x1, .f32⟩
  | .local _ .vmem, ⟨9, _⟩ => ⟨S8192x128, .f32⟩
  | .local _ .vmem, ⟨10, _⟩ => ⟨S8192x128, .f32⟩
  | .local _ .vmem, ⟨11, _⟩ => ⟨S10000x128, .f32⟩
  | .local _ .vmem, ⟨12, _⟩ => ⟨S10000x128, .f32⟩
  | .local _ .vmem, ⟨13, _⟩ => ⟨S128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x64, .f32⟩
  | .local _ .vmem, ⟨19, _⟩ => ⟨S10000x64, .f32⟩
  | .local _ .vmem, ⟨20, _⟩ => ⟨S10000x64, .f32⟩
  | .local _ .vmem, ⟨21, _⟩ => ⟨S8192x64, .f32⟩
  | .local _ .vmem, ⟨22, _⟩ => ⟨S8192x64, .f32⟩
  | .local _ .vmem, ⟨23, _⟩ => ⟨S8192x1, .f32⟩
  | .local _ .vmem, ⟨24, _⟩ => ⟨S8192x1, .f32⟩
  | .local _ .vmem, ⟨25, _⟩ => ⟨S8192x64, .f32⟩
  | .local _ .vmem, ⟨26, _⟩ => ⟨S8192x64, .f32⟩
  | .local _ .vmem, ⟨27, _⟩ => ⟨S10000x64, .f32⟩
  | .local _ .vmem, ⟨28, _⟩ => ⟨S10000x64, .f32⟩
  | .local _ .vmem, ⟨29, _⟩ => ⟨S64, .f32⟩
  | .local _ .vmem, ⟨30, _⟩ => ⟨S10000x64, .f32⟩
  | .local _ .vmem, ⟨31, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_call1_v0 : Ref sig .tc := ⟨.hbm, 48, rfl⟩
abbrev main_v31 : Ref sig .tc := ⟨.hbm, 49, rfl⟩
abbrev main_c_7 : Ref sig .tc := ⟨.hbm, 50, rfl⟩
abbrev main_call2_v0 : Ref sig .tc := ⟨.hbm, 51, rfl⟩
abbrev main_v32 : Ref sig .tc := ⟨.hbm, 52, rfl⟩
abbrev main_c_8 : Ref sig .tc := ⟨.hbm, 53, rfl⟩
abbrev main_call3_v0 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_14 : Ref sig .tc := ⟨.hbm, 82, rfl⟩
abbrev main_v55 : Ref sig .tc := ⟨.hbm, 83, rfl⟩
abbrev main_v56 : Ref sig .tc := ⟨.hbm, 84, rfl⟩
abbrev main_c_15 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_16 : Ref sig .tc := ⟨.hbm, 92, rfl⟩
abbrev main_call4_v0 : Ref sig .tc := ⟨.hbm, 93, rfl⟩
abbrev main_v63 : Ref sig .tc := ⟨.hbm, 94, rfl⟩
abbrev main_c_17 : Ref sig .tc := ⟨.hbm, 95, rfl⟩
abbrev main_call5_v0 : Ref sig .tc := ⟨.hbm, 96, rfl⟩
abbrev main_v64 : Ref sig .tc := ⟨.hbm, 97, rfl⟩
abbrev main_c_18 : Ref sig .tc := ⟨.hbm, 98, rfl⟩
abbrev main_call6_v0 : Ref sig .tc := ⟨.hbm, 99, rfl⟩
abbrev main_v65 : Ref sig .tc := ⟨.hbm, 100, rfl⟩
abbrev main_v66 : Ref sig .tc := ⟨.hbm, 101, rfl⟩
abbrev main_c_19 : Ref sig .tc := ⟨.hbm, 102, rfl⟩
abbrev main_v67 : Ref sig .tc := ⟨.hbm, 103, rfl⟩
abbrev main_v68 : Ref sig .tc := ⟨.hbm, 104, rfl⟩
abbrev main_c_20 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_21 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![208], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  pads_S1700000_S1703936_039360 : S1700000.Pads (![0] : Fin 1 → Nat) ![3936] ![0] S1703936
  h_S_ : 0 < S_.numel
  shapeCasts_S1703936_S1703936x1 : S1703936.ShapeCasts S1703936x1
  bcast_S_S1703936 : S_.BroadcastsInDim S1703936 (![] : Fin 0 → Fin S1703936.rank)
  bcast_S1703936_S1703936x1_0 : S1703936.BroadcastsInDim S1703936x1 (![0] : Fin 1 → Fin S1703936x1.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S8192x1_S8192x64 : S8192x1.Broadcasts S8192x64
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000_S1700000x1_S1700000_n_0_n_n_0_1_1_wf : GatherDims.WF S100000 S1700000x1 S1700000 [] [0] [] [0] [] 1 ![1]
  gather_S100000x128_S1703936x1_S1703936x128_1_0_n_n_0_1_1128_wf : GatherDims.WF S100000x128 S1703936x1 S1703936x128 [1] [0] [] [0] [] 1 ![1, 128]
  scatter_S100000x128_S1703936x1_S1703936x128_1_0_0_1_wf : ScatterDims.WF S100000x128 S1703936x1 S1703936x128 [1] [0] [0] 1
  dot_S10000x128_S128x64_S10000x64_1_0_0_1_n_n_wf : DotDims.WF S10000x128 S128x64 S10000x64 [1] [0] [0] [1] [] []
  gather_S100000x64_S1703936x1_S1703936x64_1_0_n_n_0_1_164_wf : GatherDims.WF S100000x64 S1703936x1 S1703936x64 [1] [0] [] [0] [] 1 ![1, 64]
  scatter_S100000x64_S1703936x1_S1703936x64_1_0_0_1_wf : ScatterDims.WF S100000x64 S1703936x1 S1703936x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1703936x128.size a
  hwx1_0 : ∀ i : grid1.Coords, EltTy.bits .f32 = 32 ∨ (Rect.block (s := S1703936x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1703936x128.size a
  hwx1_2 : ∀ i : grid1.Coords, EltTy.bits .f32 = 32 ∨ (Rect.block (s := S1703936x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S1703936x64.size a
  hwx4_0 : ∀ i : grid4.Coords, EltTy.bits .f32 = 32 ∨ (Rect.block (s := S1703936x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S1703936x1.size a
  hwx4_1 : ∀ i : grid4.Coords, EltTy.bits .f32 = 32 ∨ (Rect.block (s := S1703936x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S1703936x64.size a
  hwx4_2 : ∀ i : grid4.Coords, EltTy.bits .f32 = 32 ∨ (Rect.block (s := S1703936x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1703936x1_S1703936x128_1_0_n_n_0_1_1128 : GatherDims S100000x128 S1703936x1 S1703936x128 where
  offsetDims := [1]
  collapsedSliceDims := [0]
  operandBatchingDims := []
  startIndicesBatchingDims := []
  startIndexMap := [0]
  indexVectorDim := 1
  sliceSizes := ![1, 128]
  wf := gather_S100000x128_S1703936x1_S1703936x128_1_0_n_n_0_1_1128_wf
def scatter_S100000x128_S1703936x1_S1703936x128_1_0_0_1 : ScatterDims S100000x128 S1703936x1 S1703936x128 where
  updateWindowDims := [1]
  insertedWindowDims := [0]
  scatterDimsToOperandDims := [0]
  indexVectorDim := 1
  wf := scatter_S100000x128_S1703936x1_S1703936x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1703936x1_S1703936x64_1_0_n_n_0_1_164 : GatherDims S100000x64 S1703936x1 S1703936x64 where
  offsetDims := [1]
  collapsedSliceDims := [0]
  operandBatchingDims := []
  startIndicesBatchingDims := []
  startIndexMap := [0]
  indexVectorDim := 1
  sliceSizes := ![1, 64]
  wf := gather_S100000x64_S1703936x1_S1703936x64_1_0_n_n_0_1_164_wf
def scatter_S100000x64_S1703936x1_S1703936x64_1_0_0_1 : ScatterDims S100000x64 S1703936x1 S1703936x64 where
  updateWindowDims := [1]
  insertedWindowDims := [0]
  scatterDimsToOperandDims := [0]
  indexVectorDim := 1
  wf := scatter_S100000x64_S1703936x1_S1703936x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.ChainTactics.lean ====
/-
  Two small tactics for reading a buffer through the kernel program's run.

  The contents at a boundary after a stretch of host operations are a fold of the stretch over the contents
  before it. `host_read ops W` restates a goal about such a buffer as that fold over an opaque valuation and reads
  every operation's result off it: what is left is the operations' term over the earlier boundary's buffers (closed
  by `rfl` against the same term), or nothing at all for a buffer the stretch does not write. `host_skip ops` is the
  fact that a stretch leaves alone a buffer none of its operations writes, as a term.
-/
import proofs.«162896_j3650722202372_1_alg».proof.Proof.Gen.KernelIdeal.Frame

namespace Cert.KernelIdeal.Chain

open Idealize.ShloMosaic Idealize.ShloMosaic.StableHlo

/-- Restate the goal `Wnext … b = …` as the fold of the stretch `ops` over the boundary `W`, forget what `W` is, and
    read the operations' results. -/
macro "host_read " ops:ident " over " W:term : tactic =>
  `(tactic| (show StableHlo.after $ops ($W) _ = _
             generalize $W = V
             after_results))

/-- The same for a long stretch whose results are read several times: the results are read in one pass, every
    shared operand visited once. -/
macro "host_read_long " ops:ident " over " W:term : tactic =>
  `(tactic| (show StableHlo.after $ops ($W) _ = _
             generalize $W = V
             after_results_simp))

/-- A stretch leaves a buffer alone when none of its operations writes it. -/
macro "host_skip " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

end Cert.KernelIdeal.Chain
-- ==== Proof.Stage.lean ====
/-
  The four whole-array functions the kernel's regions compute, at the ideal instance.

  `proj a w` is the matrix product: entry (p, j) is the sum over k of a (p, k) * w (k, j).
  `scaleRows g n` multiplies row r of g by the one entry of row r of the column n.
  `biasRelu a b` adds b (j) to every entry of column j and takes the maximum with zero; `bias a b` only adds.
-/
import Idealize.ShloMosaic.Lib.ValueIdx
import Idealize.ShloMosaic.PureOps.Ideal.Laws

noncomputable section

namespace Cert.Stage

open Idealize.ShloMosaic Idealize.ShloMosaic.ValueIdx

/-- The matrix product of an [M, K] and a [K, N] array: entry (p, j) is ∑ k, a (p, k) * w (k, j). -/
def proj {M K N : Nat} (a : FVec Ideal ⟨2, ![M, K]⟩ .f32) (w : FVec Ideal ⟨2, ![K, N]⟩ .f32) :
    FVec Ideal ⟨2, ![M, N]⟩ .f32 :=
  fun i => ∑ k : Fin K, a (ix2 (show Fin M from i 0) k) * w (ix2 k (show Fin N from i 1))

theorem proj_apply {M K N : Nat} (a : FVec Ideal ⟨2, ![M, K]⟩ .f32) (w : FVec Ideal ⟨2, ![K, N]⟩ .f32)
    (p : Fin M) (j : Fin N) : proj a w (ix2 p j) = ∑ k : Fin K, a (ix2 p k) * w (ix2 k j) := rfl

/-- Row r of g times the entry of row r of the one-column array n. -/
def scaleRows {R D : Nat} (g : FVec Ideal ⟨2, ![R, D]⟩ .f32) (n : FVec Ideal ⟨2, ![R, 1]⟩ .f32) :
    FVec Ideal ⟨2, ![R, D]⟩ .f32 :=
  fun i => g i * n (ix2 (show Fin R from i 0) (0 : Fin 1))

theorem scaleRows_apply {R D : Nat} (g : FVec Ideal ⟨2, ![R, D]⟩ .f32) (n : FVec Ideal ⟨2, ![R, 1]⟩ .f32)
    (r : Fin R) (j : Fin D) : scaleRows g n (ix2 r j) = g (ix2 r j) * n (ix2 r (0 : Fin 1)) := rfl

/-- Column j shifted by b (j), then the maximum with zero. -/
def biasRelu {N D : Nat} (a : FVec Ideal ⟨2, ![N, D]⟩ .f32) (b : FVec Ideal ⟨1, ![D]⟩ .f32) :
    FVec Ideal ⟨2, ![N, D]⟩ .f32 :=
  fun i => max (a i + b (ix1 (show Fin D from i 1))) 0

theorem biasRelu_apply {N D : Nat} (a : FVec Ideal ⟨2, ![N, D]⟩ .f32) (b : FVec Ideal ⟨1, ![D]⟩ .f32)
    (p : Fin N) (j : Fin D) : biasRelu a b (ix2 p j) = max (a (ix2 p j) + b (ix1 j)) 0 := rfl

/-- Column j shifted by b (j). -/
def bias {N D : Nat} (a : FVec Ideal ⟨2, ![N, D]⟩ .f32) (b : FVec Ideal ⟨1, ![D]⟩ .f32) :
    FVec Ideal ⟨2, ![N, D]⟩ .f32 :=
  fun i => a i + b (ix1 (show Fin D from i 1))

theorem bias_apply {N D : Nat} (a : FVec Ideal ⟨2, ![N, D]⟩ .f32) (b : FVec Ideal ⟨1, ![D]⟩ .f32)
    (p : Fin N) (j : Fin D) : bias a b (ix2 p j) = a (ix2 p j) + b (ix1 j) := rfl

end Cert.Stage

end
-- ==== Proof.KVal.lean ====
/-
  The values the kernel program's host operations compute, named, as functions of the edge list and of the arrays
  the regions hand over: the source and target node lists with the self loops appended, the in-degree (a
  scatter-add of ones), its inverse square root where the degree is positive, the per-edge coefficient (the product
  of the two gathered inverse square roots), the same three lists zero-padded to a multiple of the row block, the
  row gather of a projected feature array along the padded source list, and the scatter-add of scaled rows along
  the padded target list. The whole program's result is their composition with the regions' four functions.
-/
import proofs.«162896_j3650722202372_1_alg».proof.Proof.Gen.KernelIdeal.Launch
import proofs.«162896_j3650722202372_1_alg».proof.Proof.Stage

noncomputable section

namespace Cert.KernelIdeal.KVal

open Cert.KernelIdeal Cert.KernelIdeal.Gen Idealize.ShloMosaic Idealize.ShloMosaic.TcCoe

variable {F : FTy → Type} [FloatOps F]

/-- The source nodes: row 0 of the edge list, then every node once (the self loops). -/
def row (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The target nodes: row 1 of the edge list, then every node once. -/
def col (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- The in-degree with self loops: ones accumulated at the target nodes. -/
def deg (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (col (F := F) e)) (broadcastInDim S1700000 ![] bcast_S_S1700000 (constant S_ .f32 0x3F800000#32))

/-- The inverse square root of the degree where it is positive, zero elsewhere. -/
def dis (e : (⟨S2x1600000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (deg e)) (broadcastInDim S100000 ![] bcast_S_S100000 (id (constant S_ .f32 0x00000000#32)))

/-- A node list as start indices: a negative entry is shifted up by the number of nodes, and the list becomes a column. -/
def nidx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The per-edge coefficient: the inverse square roots at the edge's two ends, multiplied. -/
def norm (e : (⟨S2x1600000, .i32⟩ : BufTy).Contents (Elt F)) : (⟨S1700000, .f32⟩ : BufTy).Contents (Elt F) :=
  mulf (Host.gather gather_S100000_S1700000x1_S1700000_n_0_n_n_0_1_1 (dis (F := F) e) (nidx (F := F) (row (F := F) e))) (Host.gather gather_S100000_S1700000x1_S1700000_n_0_n_n_0_1_1 (dis (F := F) e) (nidx (F := F) (col (F := F) e)))

/-- A node list padded with 3936 zeros to 1703936 entries. -/
def padI (v : (⟨S1700000, .i32⟩ : BufTy).Contents (Elt F)) : (⟨S1703936, .i32⟩ : BufTy).Contents (Elt F) :=
  pad S1703936 ![0] ![3936] ![0] v (id (constantI S_ 32 0#32)) pads_S1700000_S1703936_039360 h_S_

/-- The coefficients padded with zeros, as a column. -/
def normp (e : (⟨S2x1600000, .i32⟩ : BufTy).Contents (Elt F)) : (⟨S1703936x1, .f32⟩ : BufTy).Contents (Elt F) :=
  shapeCast _ (pad S1703936 ![0] ![3936] ![0] (norm (F := F) e) (sitofp (F := F) .f32 (constantI S_ 32 0#32)) pads_S1700000_S1703936_039360 h_S_) shapeCasts_S1703936_S1703936x1

/-- A padded node list as start indices. -/
def nidxp (v : (⟨S1703936, .i32⟩ : BufTy).Contents (Elt F)) : (⟨S1703936x1, .i32⟩ : BufTy).Contents (Elt F) :=
  broadcastInDim S1703936x1 ![0] bcast_S1703936_S1703936x1_0 (select (cmpi .slt v (broadcastInDim S1703936 ![] bcast_S_S1703936 (constantI S_ 32 0#32))) (addi v (broadcastInDim S1703936 ![] bcast_S_S1703936 (constantI S_ 32 100000#32))) v)

/-- The padded target nodes as a column of scatter indices. -/
def colp (e : (⟨S2x1600000, .i32⟩ : BufTy).Contents (Elt F)) : (⟨S1703936x1, .i32⟩ : BufTy).Contents (Elt F) :=
  broadcastInDim S1703936x1 ![0] bcast_S1703936_S1703936x1_0 (padI (F := F) (col (F := F) e))

/-- The rows of a 128-column array at the padded source nodes. -/
def gath128 (e : (⟨S2x1600000, .i32⟩ : BufTy).Contents (Elt F)) (P : (⟨S100000x128, .f32⟩ : BufTy).Contents (Elt F)) : (⟨S1703936x128, .f32⟩ : BufTy).Contents (Elt F) :=
  Host.gather gather_S100000x128_S1703936x1_S1703936x128_1_0_n_n_0_1_1128 P (nidxp (F := F) (padI (F := F) (row (F := F) e)))

/-- Rows accumulated at the padded target nodes, 128 columns. -/
def agg128 (e : (⟨S2x1600000, .i32⟩ : BufTy).Contents (Elt F)) (S : (⟨S1703936x128, .f32⟩ : BufTy).Contents (Elt F)) : (⟨S100000x128, .f32⟩ : BufTy).Contents (Elt F) :=
  Host.scatterAdd scatter_S100000x128_S1703936x1_S1703936x128_1_0_0_1 (broadcastInDim S100000x128 ![] bcast_S_S100000x128 (constant S_ .f32 0x00000000#32)) (colp (F := F) e) S

/-- The rows of a 64-column array at the padded source nodes. -/
def gath64 (e : (⟨S2x1600000, .i32⟩ : BufTy).Contents (Elt F)) (P : (⟨S100000x64, .f32⟩ : BufTy).Contents (Elt F)) : (⟨S1703936x64, .f32⟩ : BufTy).Contents (Elt F) :=
  Host.gather gather_S100000x64_S1703936x1_S1703936x64_1_0_n_n_0_1_164 P (nidxp (F := F) (padI (F := F) (row (F := F) e)))

/-- Rows accumulated at the padded target nodes, 64 columns. -/
def agg64 (e : (⟨S2x1600000, .i32⟩ : BufTy).Contents (Elt F)) (S : (⟨S1703936x64, .f32⟩ : BufTy).Contents (Elt F)) : (⟨S100000x64, .f32⟩ : BufTy).Contents (Elt F) :=
  Host.scatterAdd scatter_S100000x64_S1703936x1_S1703936x64_1_0_0_1 (broadcastInDim S100000x64 ![] bcast_S_S100000x64 (constant S_ .f32 0x00000000#32)) (colp (F := F) e) S

/-! The same steps as functions of whatever lists, degrees and coefficients they are given: what one stretch of
    host operations computes from the buffers it finds. -/

/-- The inverse square root of given degrees where positive, zero elsewhere. -/
def disOf (dg : (⟨S100000, .f32⟩ : BufTy).Contents (Elt F)) : (⟨S100000, .f32⟩ : BufTy).Contents (Elt F) :=
  select (cmpf (F := F) .ogt dg (broadcastInDim S100000 ![] bcast_S_S100000 (constant S_ .f32 0x00000000#32))) (Host.rsqrt dg) (broadcastInDim S100000 ![] bcast_S_S100000 (id (constant S_ .f32 0x00000000#32)))

/-- The per-edge coefficient from given inverse square roots and node lists. -/
def normOf (d : (⟨S100000, .f32⟩ : BufTy).Contents (Elt F)) (r c : (⟨S1700000, .i32⟩ : BufTy).Contents (Elt F)) : (⟨S1700000, .f32⟩ : BufTy).Contents (Elt F) :=
  mulf (Host.gather gather_S100000_S1700000x1_S1700000_n_0_n_n_0_1_1 d (nidx (F := F) r)) (Host.gather gather_S100000_S1700000x1_S1700000_n_0_n_n_0_1_1 d (nidx (F := F) c))

/-- A coefficient list padded with zeros. -/
def padF (n : (⟨S1700000, .f32⟩ : BufTy).Contents (Elt F)) : (⟨S1703936, .f32⟩ : BufTy).Contents (Elt F) :=
  pad S1703936 ![0] ![3936] ![0] n (sitofp (F := F) .f32 (constantI S_ 32 0#32)) pads_S1700000_S1703936_039360 h_S_

/-- A padded coefficient list as a column. -/
def colF (n : (⟨S1703936, .f32⟩ : BufTy).Contents (Elt F)) : (⟨S1703936x1, .f32⟩ : BufTy).Contents (Elt F) :=
  shapeCast _ n shapeCasts_S1703936_S1703936x1

/-- The rows of a 128-column array at a given padded node list. -/
def gath128Of (rp : (⟨S1703936, .i32⟩ : BufTy).Contents (Elt F)) (P : (⟨S100000x128, .f32⟩ : BufTy).Contents (Elt F)) : (⟨S1703936x128, .f32⟩ : BufTy).Contents (Elt F) :=
  Host.gather gather_S100000x128_S1703936x1_S1703936x128_1_0_n_n_0_1_1128 P (nidxp (F := F) rp)

/-- Rows accumulated at a given padded node list, 128 columns. -/
def agg128Of (cp : (⟨S1703936, .i32⟩ : BufTy).Contents (Elt F)) (S : (⟨S1703936x128, .f32⟩ : BufTy).Contents (Elt F)) : (⟨S100000x128, .f32⟩ : BufTy).Contents (Elt F) :=
  Host.scatterAdd scatter_S100000x128_S1703936x1_S1703936x128_1_0_0_1 (broadcastInDim S100000x128 ![] bcast_S_S100000x128 (constant S_ .f32 0x00000000#32)) (broadcastInDim S1703936x1 ![0] bcast_S1703936_S1703936x1_0 cp) S

/-- The rows of a 64-column array at a given padded node list. -/
def gath64Of (rp : (⟨S1703936, .i32⟩ : BufTy).Contents (Elt F)) (P : (⟨S100000x64, .f32⟩ : BufTy).Contents (Elt F)) : (⟨S1703936x64, .f32⟩ : BufTy).Contents (Elt F) :=
  Host.gather gather_S100000x64_S1703936x1_S1703936x64_1_0_n_n_0_1_164 P (nidxp (F := F) rp)

/-- Rows accumulated at a given padded node list, 64 columns. -/
def agg64Of (cp : (⟨S1703936, .i32⟩ : BufTy).Contents (Elt F)) (S : (⟨S1703936x64, .f32⟩ : BufTy).Contents (Elt F)) : (⟨S100000x64, .f32⟩ : BufTy).Contents (Elt F) :=
  Host.scatterAdd scatter_S100000x64_S1703936x1_S1703936x64_1_0_0_1 (broadcastInDim S100000x64 ![] bcast_S_S100000x64 (constant S_ .f32 0x00000000#32)) (broadcastInDim S1703936x1 ![0] bcast_S1703936_S1703936x1_0 cp) S

/-- The integer zero the padding steps start from. -/
def zeroI : (⟨S_, .i32⟩ : BufTy).Contents (Elt F) := constantI S_ 32 0#32

/-- A node list padded with a given padding value. -/
def padIOf (v : (⟨S1700000, .i32⟩ : BufTy).Contents (Elt F)) (z : (⟨S_, .i32⟩ : BufTy).Contents (Elt F)) : (⟨S1703936, .i32⟩ : BufTy).Contents (Elt F) :=
  pad S1703936 ![0] ![3936] ![0] v (id z) pads_S1700000_S1703936_039360 h_S_

/-- A coefficient list padded with the float of a given integer. -/
def padFOf (n : (⟨S1700000, .f32⟩ : BufTy).Contents (Elt F)) (z : (⟨S_, .i32⟩ : BufTy).Contents (Elt F)) : (⟨S1703936, .f32⟩ : BufTy).Contents (Elt F) :=
  pad S1703936 ![0] ![3936] ![0] n (sitofp (F := F) .f32 z) pads_S1700000_S1703936_039360 h_S_

end Cert.KernelIdeal.KVal

/-! The whole program at the ideal instance: two layers of project, gather, scale, accumulate, shift. -/
namespace Cert.KernelIdeal.KVal

open Cert.KernelIdeal Idealize.ShloMosaic Cert.Stage

/-- The first layer's output: the shifted, clipped accumulation of the scaled gathered rows of x · W1. -/
def hidden (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal)) :
    (⟨S100000x128, .f32⟩ : BufTy).Contents (Elt Ideal) :=
  biasRelu (agg128 (F := Ideal) e (scaleRows (gath128 (F := Ideal) e (proj x w1)) (normp (F := Ideal) e))) b1

/-- The program's result: the second layer applied to the first layer's output. -/
def out (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    (⟨S100000x64, .f32⟩ : BufTy).Contents (Elt Ideal) :=
  bias (agg64 (F := Ideal) e (scaleRows (gath64 (F := Ideal) e (proj (hidden x e w1 b1) w2)) (normp (F := Ideal) e))) b2

end Cert.KernelIdeal.KVal

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.RegProj.lean ====
/-
  The two projection regions as whole-array functions.

  Each grid point loads a block of 10000 rows of the left array and the whole right array, multiplies them (the
  operands' change of float format is the identity at the ideal instance, the accumulator is zero), and stores
  the 10000 product rows; the ten blocks tile the 100000 rows. So after the region the output array is the matrix
  product of the two input arrays as the region found them.
-/
import proofs.«162896_j3650722202372_1_alg».proof.Proof.Gen.KernelIdeal.Frame
import proofs.«162896_j3650722202372_1_alg».proof.Proof.Stage
import proofs.«162896_j3650722202372_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.SL.Sem
open Idealize.ShloMosaic.Pipeline (Dat Cfg Window)

/- The buffer contents when the region is entered: every statement below holds for any such contents. -/
variable (V : (c : Dev nD) → (b : Ref sig .tc) → Buf (Elt Ideal) ((c : Thread nD τ).loc b))

/-! ## The dimension numbers of the first product: which coordinate of each operand is which -/

/-- The left operand's row is the output's row. -/
private theorem lhsRow_w1 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the contracted index. -/
private theorem lhsContr_w1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contracted index. -/
private theorem rhsContr_w1 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the output's column. -/
private theorem rhsCol_w1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- One block's product at an entry: row p of the left block against column j of the right array. -/
private theorem blockProduct_w1 (x0 : Vec Ideal S10000x128 .f32) (x1 : Vec Ideal S128x128 .f32) (p : Fin 10000) (j : Fin 128) :
    k0_pay1 (F := Ideal) x0 x1 (ix2 p j) = ∑ a : Fin 128, x0 (ix2 p a) * x1 (ix2 a j) := by
  unfold k0_pay1
  exact Cert.Lib.Dot2.matmul_zero_ix2 dot_S10000x128_S128x128_S10000x128_1_0_0_1_n_n none rfl rfl
    lhsRow_w1 lhsContr_w1 rhsContr_w1 rhsCol_w1 (truncf .bf16 x0 bitsLt_bf16_f32) (truncf .bf16 x1 bitsLt_bf16_f32) p j

/-! ## The dimension numbers of the second product -/

/-- The left operand's row is the output's row. -/
private theorem lhsRow_w2 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contracted index. -/
private theorem lhsContr_w2 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the contracted index. -/
private theorem rhsContr_w2 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the output's column. -/
private theorem rhsCol_w2 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- One block's product at an entry, the left block first re-read at its own shape (which changes nothing). -/
private theorem blockProduct_w2 (x0 : Vec Ideal S10000x128 .f32) (x1 : Vec Ideal S128x64 .f32) (p : Fin 10000) (j : Fin 64) :
    k3_pay1 (F := Ideal) x0 x1 (ix2 p j) = ∑ a : Fin 128, x0 (ix2 p a) * x1 (ix2 a j) := by
  unfold k3_pay1
  refine (Cert.Lib.Dot2.matmul_zero_ix2 dot_S10000x128_S128x64_S10000x64_1_0_0_1_n_n none rfl rfl
    lhsRow_w2 lhsContr_w2 rhsContr_w2 rhsCol_w2
    (truncf .bf16 (shapeCast S10000x128 x0 shapeCasts_S10000x128_S10000x128) bitsLt_bf16_f32)
    (truncf .bf16 x1 bitsLt_bf16_f32) p j).trans ?_
  rw [shapeCast_self]
  rfl

/-- The zero offsets of a whole block, however they are spelt. -/
private theorem zeroOffsets : (![0, 0] : Fin 2 → Nat) = fun _ => 0 :=
  funext fun a => by match a with | ⟨0, _⟩ => rfl | ⟨1, _⟩ => rfl

/-! ## Region 0: the blocks of rows -/

/-- The ten points of the grid. -/
private theorem points0 (t : Fin cfg0.N) : t.val < 10 := lt_of_lt_of_eq t.isLt N_0

/-- Where each block sits, decided over the ten points: point t stages rows block t of the left array and of
    the output, and the whole right array. -/
private theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row t * 10000 + p of the array. -/
private def row0 (t : Fin cfg0.N) (p : Fin 10000) : Fin 100000 :=
  ⟨t.val * 10000 + p.val, by have := points0 t; have := p.isLt; omega⟩

/-- The left block at point t, entry (p, a), is the left array at row t * 10000 + p, column a. -/
private theorem leftBlock0 (c : Dev nD) (t : Fin cfg0.N) (p : Fin 10000) (a : Fin 128) :
    iblk0 (F := Ideal) V c 0 t (ix2 p a) = V c main_arg0 (ix2 (row0 t p) a) := by
  obtain ⟨e0, e1, -, -, -, -⟩ := blockIndex0 t
  show V c main_arg0 (((cfg0.win 0).blk t).view.emb (ix2 p a)) = V c main_arg0 (ix2 (row0 t p) a)
  refine congrArg _ ?_
  funext d; apply Fin.ext
  match d with
  | ⟨0, _⟩ => show win0_0.index t (0 : Fin 2) * 10000 + 1 * p.val = t.val * 10000 + p.val; omega
  | ⟨1, _⟩ => show win0_0.index t (1 : Fin 2) * 128 + 1 * a.val = a.val; omega

/-- The right block at any point is the whole right array. -/
private theorem rightBlock0 (c : Dev nD) (t : Fin cfg0.N) (a : Fin 128) (j : Fin 128) :
    iblk0 (F := Ideal) V c 1 t (ix2 a j) = V c main_arg2 (ix2 a j) := by
  obtain ⟨-, -, e2, e3, -, -⟩ := blockIndex0 t
  show V c main_arg2 (((cfg0.win 1).blk t).view.emb (ix2 a j)) = V c main_arg2 (ix2 a j)
  refine congrArg _ ?_
  funext d; apply Fin.ext
  match d with
  | ⟨0, _⟩ => show win0_1.index t (0 : Fin 2) * 128 + 1 * a.val = a.val; omega
  | ⟨1, _⟩ => show win0_1.index t (1 : Fin 2) * 128 + 1 * j.val = j.val; omega

/-- The output block's entry (p, j) at point t sits at row t * 10000 + p, column j of the output array. -/
private theorem outBlock0 (t : Fin cfg0.N) (p : Fin 10000) (j : Fin 128) :
    ((cfg0.win 2).blk t).view.emb (ix2 p j) = ix2 (row0 t p) j := by
  obtain ⟨-, -, -, -, e4, e5⟩ := blockIndex0 t
  funext d; apply Fin.ext
  match d with
  | ⟨0, _⟩ => show win0_2.index t (0 : Fin 2) * 10000 + 1 * p.val = t.val * 10000 + p.val; omega
  | ⟨1, _⟩ => show win0_2.index t (1 : Fin 2) * 128 + 1 * j.val = j.val; omega

/-- What point t computes at (p, j) is the product of the two arrays at row t * 10000 + p, column j. -/
private theorem blockEntry0 (c : Dev nD) (t : Fin cfg0.N) (p : Fin 10000) (j : Fin 128) :
    k0_pay1 (F := Ideal) (iblk0 V c 0 t) (iblk0 V c 1 t) (ix2 p j)
      = Cert.Stage.proj (M := 100000) (K := 128) (N := 128) (V c main_arg0) (V c main_arg2) (ix2 (row0 t p) j) :=
  ((blockProduct_w1 _ _ p j).trans
    (Finset.sum_congr rfl fun a _ => by rw [leftBlock0 V c t p a, rightBlock0 V c t a j])).trans
    (Cert.Stage.proj_apply _ _ _ _).symm

/-- What point t writes back is block t of the product of the two arrays as the region finds them. -/
private theorem written0 (c : Dev nD) (t : Fin cfg0.N) :
    (dat0 (F := Ideal) V c).flushed 2 t
      = ((cfg0.win 2).blk t).view.read (Elt Ideal)
          (Cert.Stage.proj (M := 100000) (K := 128) (N := 128) (V c main_arg0) (V c main_arg2)) := by
  show (cfg0.win 2).cut (grid0.coords t) ((dat0 (F := Ideal) V c).after 2 t) = _
  rw [after0_2]
  unfold out0_2
  rw [View.canon_unit_zero zeroOffsets]
  simp only [View.ld_unit_zero (S := S10000x128) zeroOffsets, View.ld_unit_zero (S := S128x128) zeroOffsets]
  funext y
  obtain ⟨p, j, rfl⟩ : ∃ (p : Fin 10000) (j : Fin 128), y = ix2 p j := ⟨y 0, y 1, eq_ix2 y⟩
  show k0_pay1 (F := Ideal) (iblk0 V c 0 t) (iblk0 V c 1 t) (ix2 p j)
    = Cert.Stage.proj (M := 100000) (K := 128) (N := 128) (V c main_arg0) (V c main_arg2) (((cfg0.win 2).blk t).view.emb (ix2 p j))
  rw [outBlock0 t p j]
  exact blockEntry0 V c t p j

/-- An index of the output array is in point t's block iff each coordinate is in the block's range on its axis. -/
private theorem mem_rows0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v15).slice (win0_2.rect t)).set ↔ _
  rw [View.set_slice_whole, Rect.mem_set_unit]
  exact Iff.rfl

/-- The ten blocks of 10000 rows tile the 100000 rows: row r is in block r / 10000. -/
private theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hq : (i 0).val / 10000 < cfg0.N := lt_of_lt_of_eq (by omega) N_0.symm
  obtain ⟨-, -, -, -, e4, e5⟩ := blockIndex0 ⟨(i 0).val / 10000, hq⟩
  have e4' : win0_2.index ⟨(i 0).val / 10000, hq⟩ (0 : Fin 2) = (i 0).val / 10000 := e4
  refine ⟨⟨(i 0).val / 10000, hq⟩, flush0_2 _, ?_⟩
  rw [mem_rows0]
  intro a
  match a with
  | ⟨0, _⟩ => show win0_2.index ⟨(i 0).val / 10000, hq⟩ (0 : Fin 2) * 10000 ≤ (i 0).val ∧ (i 0).val < win0_2.index ⟨(i 0).val / 10000, hq⟩ (0 : Fin 2) * 10000 + 10000; omega
  | ⟨1, _⟩ => show win0_2.index ⟨(i 0).val / 10000, hq⟩ (1 : Fin 2) * 128 ≤ (i 1).val ∧ (i 1).val < win0_2.index ⟨(i 0).val / 10000, hq⟩ (1 : Fin 2) * 128 + 128; omega

/-- After region 0 its output array is the product of its two input arrays (x and W1 as the region finds them). -/
theorem final0 (c : Dev nD) :
    (dat0 (F := Ideal) V c).arrAt 2 cfg0.N
      = Cert.Stage.proj (M := 100000) (K := 128) (N := 128) (V c main_arg0) (V c main_arg2) :=
  (dat0 (F := Ideal) V c).arrAt_eq_of_cover 2 _ (fun t _ => written0 V c t) cover0

/-! ## Region 3: the blocks of rows -/

/-- The ten points of the grid. -/
private theorem points3 (t : Fin cfg3.N) : t.val < 10 := lt_of_lt_of_eq t.isLt N_3

/-- Where each block sits, decided over the ten points: point t stages rows block t of the left array and of
    the output, and the whole right array. -/
private theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of block t is row t * 10000 + p of the array. -/
private def row3 (t : Fin cfg3.N) (p : Fin 10000) : Fin 100000 :=
  ⟨t.val * 10000 + p.val, by have := points3 t; have := p.isLt; omega⟩

/-- The left block at point t, entry (p, a), is the left array at row t * 10000 + p, column a. -/
private theorem leftBlock3 (c : Dev nD) (t : Fin cfg3.N) (p : Fin 10000) (a : Fin 128) :
    iblk3 (F := Ideal) V c 0 t (ix2 p a) = V c main_v46 (ix2 (row3 t p) a) := by
  obtain ⟨e0, e1, -, -, -, -⟩ := blockIndex3 t
  show V c main_v46 (((cfg3.win 0).blk t).view.emb (ix2 p a)) = V c main_v46 (ix2 (row3 t p) a)
  refine congrArg _ ?_
  funext d; apply Fin.ext
  match d with
  | ⟨0, _⟩ => show win3_0.index t (0 : Fin 2) * 10000 + 1 * p.val = t.val * 10000 + p.val; omega
  | ⟨1, _⟩ => show win3_0.index t (1 : Fin 2) * 128 + 1 * a.val = a.val; omega

/-- The right block at any point is the whole right array. -/
private theorem rightBlock3 (c : Dev nD) (t : Fin cfg3.N) (a : Fin 128) (j : Fin 64) :
    iblk3 (F := Ideal) V c 1 t (ix2 a j) = V c main_arg4 (ix2 a j) := by
  obtain ⟨-, -, e2, e3, -, -⟩ := blockIndex3 t
  show V c main_arg4 (((cfg3.win 1).blk t).view.emb (ix2 a j)) = V c main_arg4 (ix2 a j)
  refine congrArg _ ?_
  funext d; apply Fin.ext
  match d with
  | ⟨0, _⟩ => show win3_1.index t (0 : Fin 2) * 128 + 1 * a.val = a.val; omega
  | ⟨1, _⟩ => show win3_1.index t (1 : Fin 2) * 64 + 1 * j.val = j.val; omega

/-- The output block's entry (p, j) at point t sits at row t * 10000 + p, column j of the output array. -/
private theorem outBlock3 (t : Fin cfg3.N) (p : Fin 10000) (j : Fin 64) :
    ((cfg3.win 2).blk t).view.emb (ix2 p j) = ix2 (row3 t p) j := by
  obtain ⟨-, -, -, -, e4, e5⟩ := blockIndex3 t
  funext d; apply Fin.ext
  match d with
  | ⟨0, _⟩ => show win3_2.index t (0 : Fin 2) * 10000 + 1 * p.val = t.val * 10000 + p.val; omega
  | ⟨1, _⟩ => show win3_2.index t (1 : Fin 2) * 64 + 1 * j.val = j.val; omega

/-- What point t computes at (p, j) is the product of the two arrays at row t * 10000 + p, column j. -/
private theorem blockEntry3 (c : Dev nD) (t : Fin cfg3.N) (p : Fin 10000) (j : Fin 64) :
    k3_pay1 (F := Ideal) (iblk3 V c 0 t) (iblk3 V c 1 t) (ix2 p j)
      = Cert.Stage.proj (M := 100000) (K := 128) (N := 64) (V c main_v46) (V c main_arg4) (ix2 (row3 t p) j) :=
  ((blockProduct_w2 _ _ p j).trans
    (Finset.sum_congr rfl fun a _ => by rw [leftBlock3 V c t p a, rightBlock3 V c t a j])).trans
    (Cert.Stage.proj_apply _ _ _ _).symm

/-- What point t writes back is block t of the product of the two arrays as the region finds them. -/
private theorem written3 (c : Dev nD) (t : Fin cfg3.N) :
    (dat3 (F := Ideal) V c).flushed 2 t
      = ((cfg3.win 2).blk t).view.read (Elt Ideal)
          (Cert.Stage.proj (M := 100000) (K := 128) (N := 64) (V c main_v46) (V c main_arg4)) := by
  show (cfg3.win 2).cut (grid3.coords t) ((dat3 (F := Ideal) V c).after 2 t) = _
  rw [after3_2]
  unfold out3_2
  rw [View.canon_unit_zero zeroOffsets]
  simp only [View.ld_unit_zero (S := S10000x128) zeroOffsets, View.ld_unit_zero (S := S128x64) zeroOffsets]
  funext y
  obtain ⟨p, j, rfl⟩ : ∃ (p : Fin 10000) (j : Fin 64), y = ix2 p j := ⟨y 0, y 1, eq_ix2 y⟩
  show k3_pay1 (F := Ideal) (iblk3 V c 0 t) (iblk3 V c 1 t) (ix2 p j)
    = Cert.Stage.proj (M := 100000) (K := 128) (N := 64) (V c main_v46) (V c main_arg4) (((cfg3.win 2).blk t).view.emb (ix2 p j))
  rw [outBlock3 t p j]
  exact blockEntry3 V c t p j

/-- An index of the output array is in point t's block iff each coordinate is in the block's range on its axis. -/
private theorem mem_rows3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v47).slice (win3_2.rect t)).set ↔ _
  rw [View.set_slice_whole, Rect.mem_set_unit]
  exact Iff.rfl

/-- The ten blocks of 10000 rows tile the 100000 rows: row r is in block r / 10000. -/
private theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hq : (i 0).val / 10000 < cfg3.N := lt_of_lt_of_eq (by omega) N_3.symm
  obtain ⟨-, -, -, -, e4, e5⟩ := blockIndex3 ⟨(i 0).val / 10000, hq⟩
  have e4' : win3_2.index ⟨(i 0).val / 10000, hq⟩ (0 : Fin 2) = (i 0).val / 10000 := e4
  refine ⟨⟨(i 0).val / 10000, hq⟩, flush3_2 _, ?_⟩
  rw [mem_rows3]
  intro a
  match a with
  | ⟨0, _⟩ => show win3_2.index ⟨(i 0).val / 10000, hq⟩ (0 : Fin 2) * 10000 ≤ (i 0).val ∧ (i 0).val < win3_2.index ⟨(i 0).val / 10000, hq⟩ (0 : Fin 2) * 10000 + 10000; omega
  | ⟨1, _⟩ => show win3_2.index ⟨(i 0).val / 10000, hq⟩ (1 : Fin 2) * 64 ≤ (i 1).val ∧ (i 1).val < win3_2.index ⟨(i 0).val / 10000, hq⟩ (1 : Fin 2) * 64 + 64; omega

/-- After region 3 its output array is the product of its two input arrays (the hidden features and W2). -/
theorem final3 (c : Dev nD) :
    (dat3 (F := Ideal) V c).arrAt 2 cfg3.N
      = Cert.Stage.proj (M := 100000) (K := 128) (N := 64) (V c main_v46) (V c main_arg4) :=
  (dat3 (F := Ideal) V c).arrAt_eq_of_cover 2 _ (fun t _ => written3 V c t) cover3

end Cert.KernelIdeal.RegVal

end
-- ==== Proof.RegScale.lean ====
/-
  The two scaling regions as whole-array functions.

  Each grid point loads a block of 8192 rows of the gathered array and the matching 8192 entries of the
  coefficient column, broadcasts the column across the row and multiplies; the 208 blocks tile the 1703936 rows.
  So after the region the output array is the gathered array with row r multiplied by the column's entry r.

  Per region: the body at an entry (p, q) of a block is the block's entry times the column block's entry (p, 0);
  at point t all three windows sit at block (t, 0), so entry (p, q) of each block is entry (t * 8192 + p, ·) of its
  array; hence what point t writes back is block t of the scaled array; row r lies in the block of point r / 8192,
  so the blocks cover the array and the array ends holding the scaled array.
-/
import proofs.«162896_j3650722202372_1_alg».proof.Proof.Gen.KernelIdeal.Frame
import proofs.«162896_j3650722202372_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.SL.Sem
open Idealize.ShloMosaic.Pipeline (Dat Cfg Window)

/- The buffer contents when the region is entered: every statement below holds for any such contents. -/
variable (V : (c : Dev nD) → (b : Ref sig .tc) → Buf (Elt Ideal) ((c : Thread nD τ).loc b))

/-! ## What both regions share -/

/-- The offsets (0, 0) are the zero offsets. -/
private theorem zeroOffsets : (![0, 0] : Fin 2 → Nat) = fun _ => 0 := funext fun a => by fin_cases a <;> rfl

/-- An `[a, 1]` column broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Region 1: 128 columns -/

/-- The body of region 1 at an entry: the block's entry times the column block's entry of the same row. -/
private theorem pay1_apply (x0 : Vec Ideal S8192x128 .f32) (x1 : Vec Ideal S8192x1 .f32) (p : Fin 8192) (j : Fin 128) :
    k1_pay1 x0 x1 (ix2 p j) = x0 (ix2 p j) * x1 (ix2 p (0 : Fin 1)) := by
  unfold k1_pay1
  rw [mulf_apply, shapeCast_self, shapeCast_self, broadcastTo_a1_ab_apply]

/-- The index maps of region 1 over its 208 points: at point t all three windows sit at block (t, 0). -/
private theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- Entry (p, q) of the gathered array's block at point t is entry (t * 8192 + p, q) of the array. -/
private theorem rows1_apply (c : Dev nD) (t : Fin cfg1.N) (p : Fin 8192) (q : Fin 128) (r : Fin 1703936)
    (hr : r.val = t.val * 8192 + p.val) :
    (iblk1 V c 0 t : Vec Ideal S8192x128 .f32) (ix2 p q)
      = (V c main_v41 : S1703936x128.Idx → Elt Ideal .f32) (ix2 r q) := by
  obtain ⟨e0, e1, -⟩ := idx_facts1 t
  unfold iblk1
  rw [View.read_apply]
  show V c main_v41 _ = V c main_v41 _
  congr 1
  funext a
  apply Fin.ext
  match a with
  | ⟨0, _⟩ => show win1_0.index t (0 : Fin 2) * 8192 + 1 * p.val = r.val; omega
  | ⟨1, _⟩ => show win1_0.index t (1 : Fin 2) * 128 + 1 * q.val = q.val; omega

/-- Entry (p, 0) of the coefficient column's block at point t is entry (t * 8192 + p, 0) of the column. -/
private theorem coef1_apply (c : Dev nD) (t : Fin cfg1.N) (p : Fin 8192) (r : Fin 1703936)
    (hr : r.val = t.val * 8192 + p.val) :
    (iblk1 V c 1 t : Vec Ideal S8192x1 .f32) (ix2 p (0 : Fin 1))
      = (V c main_v34 : S1703936x1.Idx → Elt Ideal .f32) (ix2 r (0 : Fin 1)) := by
  obtain ⟨-, -, e2, e3, -⟩ := idx_facts1 t
  unfold iblk1
  rw [View.read_apply]
  show V c main_v34 _ = V c main_v34 _
  congr 1
  funext a
  apply Fin.ext
  match a with
  | ⟨0, _⟩ => show win1_1.index t (0 : Fin 2) * 8192 + 1 * p.val = r.val; omega
  | ⟨1, _⟩ => show win1_1.index t (1 : Fin 2) * 1 + 1 * (0 : Fin 1).val = (0 : Fin 1).val; rw [e3]; rfl

/-- Entry (p, q) of the output's block at point t sits at entry (t * 8192 + p, q) of the output array. -/
private theorem out1_emb (t : Fin cfg1.N) (p : Fin 8192) (q : Fin 128) (r : Fin 1703936)
    (hr : r.val = t.val * 8192 + p.val) :
    ((cfg1.win 2).blk t).view.emb (ix2 p q) = (ix2 r q : S1703936x128.Idx) := by
  obtain ⟨-, -, -, -, e4, e5⟩ := idx_facts1 t
  funext a
  apply Fin.ext
  match a with
  | ⟨0, _⟩ => show win1_2.index t (0 : Fin 2) * 8192 + 1 * p.val = r.val; omega
  | ⟨1, _⟩ => show win1_2.index t (1 : Fin 2) * 128 + 1 * q.val = q.val; omega

/-- What point t of region 1 writes back is block t of the scaled array. -/
private theorem flushed1_eq (c : Dev nD) (t : Fin cfg1.N) :
    (dat1 (F := Ideal) V c).flushed 2 t = ((cfg1.win 2).blk t).view.read (Elt Ideal)
      (Cert.Stage.scaleRows (R := 1703936) (D := 128) (V c main_v41) (V c main_v34)) := by
  show (cfg1.win 2).cut (grid1.coords t) ((dat1 V c).after 2 t) = _
  rw [after1_2]
  unfold out1_2
  rw [View.canon_unit_zero zeroOffsets]
  simp only [View.ld_unit_zero (S := S8192x128) zeroOffsets, View.ld_unit_zero (S := S8192x1) zeroOffsets]
  funext j
  obtain ⟨p, q, rfl⟩ : ∃ (p : Fin 8192) (q : Fin 128), j = ix2 p q := ⟨j 0, j 1, eq_ix2 j⟩
  have hN : cfg1.N = 208 := N_1
  have ht : t.val < 208 := hN ▸ t.isLt
  have hr : t.val * 8192 + p.val < 1703936 := by have := p.isLt; omega
  show k1_pay1 (iblk1 V c 0 t) (iblk1 V c 1 t) (ix2 p q)
    = Cert.Stage.scaleRows (R := 1703936) (D := 128) (V c main_v41) (V c main_v34) (((cfg1.win 2).blk t).view.emb (ix2 p q))
  rw [out1_emb t p q ⟨_, hr⟩ rfl, Cert.Stage.scaleRows_apply]
  refine (pay1_apply (iblk1 V c 0 t) (iblk1 V c 1 t) p q).trans ?_
  rw [rows1_apply V c t p q ⟨_, hr⟩ rfl, coef1_apply V c t p ⟨_, hr⟩ rfl]

/-- An index of the output array is in point t's block iff each coordinate is in the block's range on its axis. -/
private theorem mem_blk1 (t : Fin cfg1.N) (i : S1703936x128.Idx) :
    i ∈ ((cfg1.win 2).blk t).view.set ↔ ∀ a : Fin 2, win1_2.index t a * S8192x128.size a ≤ (i a).val
      ∧ (i a).val < win1_2.index t a * S8192x128.size a + S8192x128.size a := by
  show i ∈ ((View.whole main_v42).slice (win1_2.rect t)).set ↔ _
  rw [View.set_slice_whole, Rect.mem_set_unit]
  exact Iff.rfl

/-- Row r of the output array lies in the block of point r / 8192: the 208 blocks of 8192 rows tile the 1703936 rows. -/
private theorem cover1 (i : S1703936x128.Idx) :
    ∃ t : Fin cfg1.N, (cfg1.win 2).flush t = true ∧ i ∈ ((cfg1.win 2).blk t).view.set := by
  have hi0 : (i 0).val < 1703936 := (i 0).isLt
  have hi1 : (i 1).val < 128 := (i 1).isLt
  have hN : cfg1.N = 208 := N_1
  have hlt : (i 0).val / 8192 < cfg1.N := by rw [hN]; omega
  obtain ⟨-, -, -, -, e4, e5⟩ := idx_facts1 ⟨(i 0).val / 8192, hlt⟩
  refine ⟨⟨(i 0).val / 8192, hlt⟩, flush1_2 _, ?_⟩
  rw [mem_blk1]
  intro a
  match a with
  | ⟨0, _⟩ =>
    show win1_2.index ⟨(i 0).val / 8192, hlt⟩ (0 : Fin 2) * 8192 ≤ (i 0).val
      ∧ (i 0).val < win1_2.index ⟨(i 0).val / 8192, hlt⟩ (0 : Fin 2) * 8192 + 8192
    rw [e4]
    show (i 0).val / 8192 * 8192 ≤ (i 0).val ∧ (i 0).val < (i 0).val / 8192 * 8192 + 8192
    omega
  | ⟨1, _⟩ =>
    show win1_2.index ⟨(i 0).val / 8192, hlt⟩ (1 : Fin 2) * 128 ≤ (i 1).val
      ∧ (i 1).val < win1_2.index ⟨(i 0).val / 8192, hlt⟩ (1 : Fin 2) * 128 + 128
    rw [e5]
    omega

/-- After region 1 its output array is its first input with every row scaled by the second input's entry of that row. -/
theorem final1 (c : Dev nD) :
    (dat1 (F := Ideal) V c).arrAt 2 cfg1.N
      = Cert.Stage.scaleRows (R := 1703936) (D := 128) (V c main_v41) (V c main_v34) :=
  (dat1 (F := Ideal) V c).arrAt_eq_of_cover 2
    (Cert.Stage.scaleRows (R := 1703936) (D := 128) (V c main_v41) (V c main_v34))
    (fun t _ => flushed1_eq V c t) cover1

/-! ## Region 4: 64 columns -/

/-- The body of region 4 at an entry: the block's entry times the column block's entry of the same row. -/
private theorem pay4_apply (x0 : Vec Ideal S8192x64 .f32) (x1 : Vec Ideal S8192x1 .f32) (p : Fin 8192) (j : Fin 64) :
    k4_pay1 x0 x1 (ix2 p j) = x0 (ix2 p j) * x1 (ix2 p (0 : Fin 1)) := by
  unfold k4_pay1
  rw [mulf_apply, shapeCast_self, shapeCast_self, broadcastTo_a1_ab_apply]

/-- The index maps of region 4 over its 208 points: at point t all three windows sit at block (t, 0). -/
private theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0 :=
  (by decide +kernel : ∀ t : Fin grid4.N, _)

/-- Entry (p, q) of the gathered array's block at point t is entry (t * 8192 + p, q) of the array. -/
private theorem rows4_apply (c : Dev nD) (t : Fin cfg4.N) (p : Fin 8192) (q : Fin 64) (r : Fin 1703936)
    (hr : r.val = t.val * 8192 + p.val) :
    (iblk4 V c 0 t : Vec Ideal S8192x64 .f32) (ix2 p q)
      = (V c main_v73 : S1703936x64.Idx → Elt Ideal .f32) (ix2 r q) := by
  obtain ⟨e0, e1, -⟩ := idx_facts4 t
  unfold iblk4
  rw [View.read_apply]
  show V c main_v73 _ = V c main_v73 _
  congr 1
  funext a
  apply Fin.ext
  match a with
  | ⟨0, _⟩ => show win4_0.index t (0 : Fin 2) * 8192 + 1 * p.val = r.val; omega
  | ⟨1, _⟩ => show win4_0.index t (1 : Fin 2) * 64 + 1 * q.val = q.val; omega

/-- Entry (p, 0) of the coefficient column's block at point t is entry (t * 8192 + p, 0) of the column. -/
private theorem coef4_apply (c : Dev nD) (t : Fin cfg4.N) (p : Fin 8192) (r : Fin 1703936)
    (hr : r.val = t.val * 8192 + p.val) :
    (iblk4 V c 1 t : Vec Ideal S8192x1 .f32) (ix2 p (0 : Fin 1))
      = (V c main_v66 : S1703936x1.Idx → Elt Ideal .f32) (ix2 r (0 : Fin 1)) := by
  obtain ⟨-, -, e2, e3, -⟩ := idx_facts4 t
  unfold iblk4
  rw [View.read_apply]
  show V c main_v66 _ = V c main_v66 _
  congr 1
  funext a
  apply Fin.ext
  match a with
  | ⟨0, _⟩ => show win4_1.index t (0 : Fin 2) * 8192 + 1 * p.val = r.val; omega
  | ⟨1, _⟩ => show win4_1.index t (1 : Fin 2) * 1 + 1 * (0 : Fin 1).val = (0 : Fin 1).val; rw [e3]; rfl

/-- Entry (p, q) of the output's block at point t sits at entry (t * 8192 + p, q) of the output array. -/
private theorem out4_emb (t : Fin cfg4.N) (p : Fin 8192) (q : Fin 64) (r : Fin 1703936)
    (hr : r.val = t.val * 8192 + p.val) :
    ((cfg4.win 2).blk t).view.emb (ix2 p q) = (ix2 r q : S1703936x64.Idx) := by
  obtain ⟨-, -, -, -, e4, e5⟩ := idx_facts4 t
  funext a
  apply Fin.ext
  match a with
  | ⟨0, _⟩ => show win4_2.index t (0 : Fin 2) * 8192 + 1 * p.val = r.val; omega
  | ⟨1, _⟩ => show win4_2.index t (1 : Fin 2) * 64 + 1 * q.val = q.val; omega

/-- What point t of region 4 writes back is block t of the scaled array. -/
private theorem flushed4_eq (c : Dev nD) (t : Fin cfg4.N) :
    (dat4 (F := Ideal) V c).flushed 2 t = ((cfg4.win 2).blk t).view.read (Elt Ideal)
      (Cert.Stage.scaleRows (R := 1703936) (D := 64) (V c main_v73) (V c main_v66)) := by
  show (cfg4.win 2).cut (grid4.coords t) ((dat4 V c).after 2 t) = _
  rw [after4_2]
  unfold out4_2
  rw [View.canon_unit_zero zeroOffsets]
  simp only [View.ld_unit_zero (S := S8192x64) zeroOffsets, View.ld_unit_zero (S := S8192x1) zeroOffsets]
  funext j
  obtain ⟨p, q, rfl⟩ : ∃ (p : Fin 8192) (q : Fin 64), j = ix2 p q := ⟨j 0, j 1, eq_ix2 j⟩
  have hN : cfg4.N = 208 := N_4
  have ht : t.val < 208 := hN ▸ t.isLt
  have hr : t.val * 8192 + p.val < 1703936 := by have := p.isLt; omega
  show k4_pay1 (iblk4 V c 0 t) (iblk4 V c 1 t) (ix2 p q)
    = Cert.Stage.scaleRows (R := 1703936) (D := 64) (V c main_v73) (V c main_v66) (((cfg4.win 2).blk t).view.emb (ix2 p q))
  rw [out4_emb t p q ⟨_, hr⟩ rfl, Cert.Stage.scaleRows_apply]
  refine (pay4_apply (iblk4 V c 0 t) (iblk4 V c 1 t) p q).trans ?_
  rw [rows4_apply V c t p q ⟨_, hr⟩ rfl, coef4_apply V c t p ⟨_, hr⟩ rfl]

/-- An index of the output array is in point t's block iff each coordinate is in the block's range on its axis. -/
private theorem mem_blk4 (t : Fin cfg4.N) (i : S1703936x64.Idx) :
    i ∈ ((cfg4.win 2).blk t).view.set ↔ ∀ a : Fin 2, win4_2.index t a * S8192x64.size a ≤ (i a).val
      ∧ (i a).val < win4_2.index t a * S8192x64.size a + S8192x64.size a := by
  show i ∈ ((View.whole main_v74).slice (win4_2.rect t)).set ↔ _
  rw [View.set_slice_whole, Rect.mem_set_unit]
  exact Iff.rfl

/-- Row r of the output array lies in the block of point r / 8192: the 208 blocks of 8192 rows tile the 1703936 rows. -/
private theorem cover4 (i : S1703936x64.Idx) :
    ∃ t : Fin cfg4.N, (cfg4.win 2).flush t = true ∧ i ∈ ((cfg4.win 2).blk t).view.set := by
  have hi0 : (i 0).val < 1703936 := (i 0).isLt
  have hi1 : (i 1).val < 64 := (i 1).isLt
  have hN : cfg4.N = 208 := N_4
  have hlt : (i 0).val / 8192 < cfg4.N := by rw [hN]; omega
  obtain ⟨-, -, -, -, e4, e5⟩ := idx_facts4 ⟨(i 0).val / 8192, hlt⟩
  refine ⟨⟨(i 0).val / 8192, hlt⟩, flush4_2 _, ?_⟩
  rw [mem_blk4]
  intro a
  match a with
  | ⟨0, _⟩ =>
    show win4_2.index ⟨(i 0).val / 8192, hlt⟩ (0 : Fin 2) * 8192 ≤ (i 0).val
      ∧ (i 0).val < win4_2.index ⟨(i 0).val / 8192, hlt⟩ (0 : Fin 2) * 8192 + 8192
    rw [e4]
    show (i 0).val / 8192 * 8192 ≤ (i 0).val ∧ (i 0).val < (i 0).val / 8192 * 8192 + 8192
    omega
  | ⟨1, _⟩ =>
    show win4_2.index ⟨(i 0).val / 8192, hlt⟩ (1 : Fin 2) * 64 ≤ (i 1).val
      ∧ (i 1).val < win4_2.index ⟨(i 0).val / 8192, hlt⟩ (1 : Fin 2) * 64 + 64
    rw [e5]
    omega

/-- After region 4 its output array is its first input with every row scaled by the second input's entry of that row. -/
theorem final4 (c : Dev nD) :
    (dat4 (F := Ideal) V c).arrAt 2 cfg4.N
      = Cert.Stage.scaleRows (R := 1703936) (D := 64) (V c main_v73) (V c main_v66) :=
  (dat4 (F := Ideal) V c).arrAt_eq_of_cover 2
    (Cert.Stage.scaleRows (R := 1703936) (D := 64) (V c main_v73) (V c main_v66))
    (fun t _ => flushed4_eq V c t) cover4

end Cert.KernelIdeal.RegVal

end
-- ==== Proof.RegShift.lean ====
/-
  The two shifting regions as whole-array functions.

  Each grid point loads a block of 10000 rows of the accumulated array and the whole shift vector, adds the
  vector to every row (region 2 then takes the maximum with zero) and stores the block; the ten blocks tile the
  100000 rows. So after the region the output array is the input array shifted column by column (and clipped
  below at zero in region 2).
-/
import proofs.«162896_j3650722202372_1_alg».proof.Proof.Gen.KernelIdeal.Frame
import proofs.«162896_j3650722202372_1_alg».proof.Proof.Stage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx
open Idealize.SL.Sem
open Idealize.ShloMosaic.Pipeline (Dat Cfg Window)

/- The buffer contents when the region is entered: every statement below holds for any such contents. -/
variable (V : (c : Dev nD) → (b : Ref sig .tc) → Buf (Elt Ideal) ((c : Thread nD τ).loc b))

/-! ## Zero offsets -/

/-- The zero offset of a two-axis block. -/
private theorem shiftOff2 : (![0, 0] : Fin 2 → Nat) = fun _ => 0 := funext fun a => by fin_cases a <;> rfl

/-- The zero offset of a one-axis block. -/
private theorem shiftOff1 : (![0] : Fin 1 → Nat) = fun _ => 0 := funext fun a => by fin_cases a; rfl

/-! ## Region 2: shift by b1, then the maximum with zero -/

/-- Entry (p, j) of a block's result: the block's entry plus the vector's entry j, clipped below at zero.
    The vector is read as a one-row array whose row is repeated down the rows; the zero is the zero word. -/
private theorem shiftClip_apply (x0 : Vec Ideal S10000x128 .f32) (x1 : Vec Ideal S128 .f32) (p : Fin 10000) (j : Fin 128) :
    k2_pay1 x0 x1 (ix2 p j) = max (x0 (ix2 p j) + x1 (ix1 j)) 0 := by
  unfold k2_pay1
  rw [maximumf_apply, addf_apply, broadcast_apply, shapeCast_self, broadcastTo_1b_ab_apply, shapeCast_a_1a_apply]
  show max (x0 (ix2 p j) + x1 (ix1 j)) (Ideal.ofBits .f32 0x00000000#32) = _
  rw [Ideal.ofBits_zero_f32]

/-- Where the blocks of point t sit: the accumulated array's and the output's at row block t, column block 0;
    the shift vector's at block 0. -/
private theorem shiftClip_maps : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point t writes back is rows 10000 t … 10000 t + 9999 of the shifted and clipped array. -/
private theorem shiftClip_block (c : Dev nD) (t : Fin cfg2.N) :
    (dat2 (F := Ideal) V c).flushed 2 t = ((cfg2.win 2).blk t).view.read (Elt Ideal)
      (Cert.Stage.biasRelu (N := 100000) (D := 128) (V c main_v45) (V c main_arg3)) := by
  show (cfg2.win 2).cut (grid2.coords t) ((dat2 V c).after 2 t) = _
  rw [after2_2]
  unfold out2_2
  rw [View.canon_unit_zero shiftOff2]
  simp only [View.ld_unit_zero (S := S10000x128) shiftOff2, View.ld_unit_zero (S := S128) shiftOff1]
  obtain ⟨e00, e01, e10, e20, e21⟩ := shiftClip_maps t
  have ht : t.val < 10 := t.isLt
  funext y
  obtain ⟨p, j, rfl⟩ : ∃ (p : Fin 10000) (j : Fin 128), y = ix2 p j := ⟨y 0, y 1, eq_ix2 y⟩
  show k2_pay1 (iblk2 V c 0 t) (iblk2 V c 1 t) (ix2 p j)
      = Cert.Stage.biasRelu (N := 100000) (D := 128) (V c main_v45) (V c main_arg3)
          (((cfg2.win 2).blk t).view.emb (ix2 p j))
  have hp : p.val < 10000 := p.isLt
  -- row p of block t is row 10000 t + p of the array, in the output and in the accumulated array alike
  have h2 : ((cfg2.win 2).blk t).view.emb (ix2 p j) = ix2 (⟨t.val * 10000 + p.val, by omega⟩ : Fin 100000) j := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * j.val = j.val; omega
  have h0 : ((cfg2.win 0).blk t).view.emb (ix2 p j) = ix2 (⟨t.val * 10000 + p.val, by omega⟩ : Fin 100000) j := by
    funext a; apply Fin.ext
    match a with
    | ⟨0, _⟩ => show win2_0.index t (0 : Fin 2) * 10000 + 1 * p.val = t.val * 10000 + p.val; omega
    | ⟨1, _⟩ => show win2_0.index t (1 : Fin 2) * 128 + 1 * j.val = j.val; omega
  -- the shift vector's one block is the whole vector
  have h1 : ((cfg2.win 1).blk t).view.emb (ix1 j) = ix1 j := by
    funext a; apply Fin.ext
    match a with
    | ⟨0, _⟩ => show win2_1.index t (0 : Fin 1) * 128 + 1 * j.val = j.val; omega
  have b0 : (iblk2 V c 0 t : Vec Ideal S10000x128 .f32) (ix2 p j)
      = (V c main_v45 : S100000x128.Idx → Ideal .f32) (ix2 (⟨t.val * 10000 + p.val, by omega⟩ : Fin 100000) j) := by
    show (V c main_v45 : S100000x128.Idx → Ideal .f32) (((cfg2.win 0).blk t).view.emb (ix2 p j)) = _
    rw [h0]
  have b1 : (iblk2 V c 1 t : Vec Ideal S128 .f32) (ix1 j) = (V c main_arg3 : S128.Idx → Ideal .f32) (ix1 j) := by
    show (V c main_arg3 : S128.Idx → Ideal .f32) (((cfg2.win 1).blk t).view.emb (ix1 j)) = _
    rw [h1]
  rw [shiftClip_apply, h2, Cert.Stage.biasRelu_apply, b0, b1]

/-- An index of the output array is in point t's block iff each coordinate is in the block's range on its axis. -/
private theorem shiftClip_mem (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v46).slice (win2_2.rect t)).set ↔ _
  rw [View.set_slice_whole, Rect.mem_set_unit]
  exact Iff.rfl

/-- The ten blocks tile the 100000 rows: row r is in the block of point r / 10000. -/
private theorem shiftClip_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hq : (i 0).val / 10000 < cfg2.N := by show (i 0).val / 10000 < 10; omega
  obtain ⟨e00, e01, e10, e20, e21⟩ := shiftClip_maps ⟨(i 0).val / 10000, hq⟩
  have e20' : win2_2.index ⟨(i 0).val / 10000, hq⟩ (0 : Fin 2) = (i 0).val / 10000 := e20
  refine ⟨⟨(i 0).val / 10000, hq⟩, flush2_2 _, ?_⟩
  rw [shiftClip_mem]
  intro a
  match a with
  | ⟨0, _⟩ =>
    show win2_2.index ⟨(i 0).val / 10000, hq⟩ (0 : Fin 2) * 10000 ≤ (i 0).val
      ∧ (i 0).val < win2_2.index ⟨(i 0).val / 10000, hq⟩ (0 : Fin 2) * 10000 + 10000
    omega
  | ⟨1, _⟩ =>
    show win2_2.index ⟨(i 0).val / 10000, hq⟩ (1 : Fin 2) * 128 ≤ (i 1).val
      ∧ (i 1).val < win2_2.index ⟨(i 0).val / 10000, hq⟩ (1 : Fin 2) * 128 + 128
    omega

/-- After region 2 its output array is the accumulated array shifted by b1 and clipped below at zero. -/
theorem final2 (c : Dev nD) :
    (dat2 (F := Ideal) V c).arrAt 2 cfg2.N
      = Cert.Stage.biasRelu (N := 100000) (D := 128) (V c main_v45) (V c main_arg3) :=
  (dat2 V c).arrAt_eq_of_cover 2 _ (fun t _ => shiftClip_block V c t) shiftClip_cover

/-! ## Region 5: shift by b2 -/

/-- Entry (p, j) of a block's result: the block's entry plus the vector's entry j. -/
private theorem shift_apply (x0 : Vec Ideal S10000x64 .f32) (x1 : Vec Ideal S64 .f32) (p : Fin 10000) (j : Fin 64) :
    k5_pay1 x0 x1 (ix2 p j) = x0 (ix2 p j) + x1 (ix1 j) := by
  unfold k5_pay1
  rw [addf_apply, shapeCast_self, broadcastTo_1b_ab_apply, shapeCast_a_1a_apply]

/-- Where the blocks of point t sit: the accumulated array's and the output's at row block t, column block 0;
    the shift vector's at block 0. -/
private theorem shift_maps : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- What point t writes back is rows 10000 t … 10000 t + 9999 of the shifted array. -/
private theorem shift_block (c : Dev nD) (t : Fin cfg5.N) :
    (dat5 (F := Ideal) V c).flushed 2 t = ((cfg5.win 2).blk t).view.read (Elt Ideal)
      (Cert.Stage.bias (N := 100000) (D := 64) (V c main_v77) (V c main_arg5)) := by
  show (cfg5.win 2).cut (grid5.coords t) ((dat5 V c).after 2 t) = _
  rw [after5_2]
  unfold out5_2
  rw [View.canon_unit_zero shiftOff2]
  simp only [View.ld_unit_zero (S := S10000x64) shiftOff2, View.ld_unit_zero (S := S64) shiftOff1]
  obtain ⟨e00, e01, e10, e20, e21⟩ := shift_maps t
  have ht : t.val < 10 := t.isLt
  funext y
  obtain ⟨p, j, rfl⟩ : ∃ (p : Fin 10000) (j : Fin 64), y = ix2 p j := ⟨y 0, y 1, eq_ix2 y⟩
  show k5_pay1 (iblk5 V c 0 t) (iblk5 V c 1 t) (ix2 p j)
      = Cert.Stage.bias (N := 100000) (D := 64) (V c main_v77) (V c main_arg5)
          (((cfg5.win 2).blk t).view.emb (ix2 p j))
  have hp : p.val < 10000 := p.isLt
  -- row p of block t is row 10000 t + p of the array, in the output and in the accumulated array alike
  have h2 : ((cfg5.win 2).blk t).view.emb (ix2 p j) = ix2 (⟨t.val * 10000 + p.val, by omega⟩ : Fin 100000) j := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * j.val = j.val; omega
  have h0 : ((cfg5.win 0).blk t).view.emb (ix2 p j) = ix2 (⟨t.val * 10000 + p.val, by omega⟩ : Fin 100000) j := by
    funext a; apply Fin.ext
    match a with
    | ⟨0, _⟩ => show win5_0.index t (0 : Fin 2) * 10000 + 1 * p.val = t.val * 10000 + p.val; omega
    | ⟨1, _⟩ => show win5_0.index t (1 : Fin 2) * 64 + 1 * j.val = j.val; omega
  -- the shift vector's one block is the whole vector
  have h1 : ((cfg5.win 1).blk t).view.emb (ix1 j) = ix1 j := by
    funext a; apply Fin.ext
    match a with
    | ⟨0, _⟩ => show win5_1.index t (0 : Fin 1) * 64 + 1 * j.val = j.val; omega
  have b0 : (iblk5 V c 0 t : Vec Ideal S10000x64 .f32) (ix2 p j)
      = (V c main_v77 : S100000x64.Idx → Ideal .f32) (ix2 (⟨t.val * 10000 + p.val, by omega⟩ : Fin 100000) j) := by
    show (V c main_v77 : S100000x64.Idx → Ideal .f32) (((cfg5.win 0).blk t).view.emb (ix2 p j)) = _
    rw [h0]
  have b1 : (iblk5 V c 1 t : Vec Ideal S64 .f32) (ix1 j) = (V c main_arg5 : S64.Idx → Ideal .f32) (ix1 j) := by
    show (V c main_arg5 : S64.Idx → Ideal .f32) (((cfg5.win 1).blk t).view.emb (ix1 j)) = _
    rw [h1]
  rw [shift_apply, h2, Cert.Stage.bias_apply, b0, b1]

/-- An index of the output array is in point t's block iff each coordinate is in the block's range on its axis. -/
private theorem shift_mem (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v78).slice (win5_2.rect t)).set ↔ _
  rw [View.set_slice_whole, Rect.mem_set_unit]
  exact Iff.rfl

/-- The ten blocks tile the 100000 rows: row r is in the block of point r / 10000. -/
private theorem shift_cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hq : (i 0).val / 10000 < cfg5.N := by show (i 0).val / 10000 < 10; omega
  obtain ⟨e00, e01, e10, e20, e21⟩ := shift_maps ⟨(i 0).val / 10000, hq⟩
  have e20' : win5_2.index ⟨(i 0).val / 10000, hq⟩ (0 : Fin 2) = (i 0).val / 10000 := e20
  refine ⟨⟨(i 0).val / 10000, hq⟩, flush5_2 _, ?_⟩
  rw [shift_mem]
  intro a
  match a with
  | ⟨0, _⟩ =>
    show win5_2.index ⟨(i 0).val / 10000, hq⟩ (0 : Fin 2) * 10000 ≤ (i 0).val
      ∧ (i 0).val < win5_2.index ⟨(i 0).val / 10000, hq⟩ (0 : Fin 2) * 10000 + 10000
    omega
  | ⟨1, _⟩ =>
    show win5_2.index ⟨(i 0).val / 10000, hq⟩ (1 : Fin 2) * 64 ≤ (i 1).val
      ∧ (i 1).val < win5_2.index ⟨(i 0).val / 10000, hq⟩ (1 : Fin 2) * 64 + 64
    omega

/-- After region 5 its output array is the accumulated array shifted by b2. -/
theorem final5 (c : Dev nD) :
    (dat5 (F := Ideal) V c).arrAt 2 cfg5.N
      = Cert.Stage.bias (N := 100000) (D := 64) (V c main_v77) (V c main_arg5) :=
  (dat5 V c).arrAt_eq_of_cover 2 _ (fun t _ => shift_block V c t) shift_cover

end Cert.KernelIdeal.RegVal

end
-- ==== Proof.KChainA.lean ====
/-
  The kernel program's run from the launch to the exit of its third region, read as values.

  The contents at each boundary between host stretches and regions are a fold from the launch memory. Read through
  that fold: the two node lists and the inverse-square-root degrees are what the first stretches compute from the
  edge list and stay in place afterwards; region 0 leaves the projected features; the next stretches pad the lists
  and the coefficients and gather the projected rows; region 1 scales them; the next stretch accumulates them;
  region 2 shifts and clips. So at region 2's exit the hidden features hold `KVal.hidden` of the arguments, and the
  lists, the degrees and the later arguments are still what they were.
-/
import proofs.«162896_j3650722202372_1_alg».proof.Proof.ChainTactics
import proofs.«162896_j3650722202372_1_alg».proof.Proof.KVal
import proofs.«162896_j3650722202372_1_alg».proof.Proof.RegProj
import proofs.«162896_j3650722202372_1_alg».proof.Proof.RegScale
import proofs.«162896_j3650722202372_1_alg».proof.Proof.RegShift

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

/- The launch memory and the generator registers: every statement below holds for any. -/
variable (m : (ℓ : Loc nD τ sig) → Buf (Elt Ideal) ℓ) (ρ : Dev nD → PrngReg)

/-! ## The first two stretches: the node lists and the inverse-square-root degrees -/

/-- After the first stretch the source-node list is the edge list's row 0 with the self loops appended. -/
theorem row1 (c : Dev nD) :
    W1 (F := Ideal) m ρ c (Proc.devRef .tc main_v3) = KVal.row (F := Ideal) (m ((c : Thread nD τ).loc main_arg1)) := by
  show StableHlo.after hostOps0 (W0 m ρ c) _ = _
  after_results
  rfl

/-- After the first stretch the target-node list is the edge list's row 1 with the self loops appended. -/
theorem col1 (c : Dev nD) :
    W1 (F := Ideal) m ρ c (Proc.devRef .tc main_v6) = KVal.col (F := Ideal) (m ((c : Thread nD τ).loc main_arg1)) := by
  show StableHlo.after hostOps0 (W0 m ρ c) _ = _
  after_results
  rfl

/-- After the first stretch: where the degree is positive. -/
theorem gt1 (c : Dev nD) :
    W1 (F := Ideal) m ρ c (Proc.devRef .tc main_v12) = (cmpf (F := Ideal) .ogt (KVal.deg (F := Ideal) (m ((c : Thread nD τ).loc main_arg1))) (broadcastInDim S100000 ![] bcast_S_S100000 (constant (F := Ideal) S_ .f32 0x00000000#32)) : (⟨S100000, .i1⟩ : BufTy).Contents (Elt Ideal)) := by
  show StableHlo.after hostOps0 (W0 m ρ c) _ = _
  after_results
  rfl

/-- After the first stretch: the inverse square root of the degree. -/
theorem rsq1 (c : Dev nD) :
    W1 (F := Ideal) m ρ c (Proc.devRef .tc main_v13) = (Host.rsqrt (F := Ideal) (φ := .f32) (KVal.deg (F := Ideal) (m ((c : Thread nD τ).loc main_arg1))) : (⟨S100000, .f32⟩ : BufTy).Contents (Elt Ideal)) := by
  show StableHlo.after hostOps0 (W0 m ρ c) _ = _
  after_results
  rfl

/-- After the first stretch: the zero the select falls back to. -/
theorem zero1 (c : Dev nD) :
    W1 (F := Ideal) m ρ c (Proc.devRef .tc main_cst_2) = (constant (F := Ideal) S_ .f32 0x00000000#32 : (⟨S_, .f32⟩ : BufTy).Contents (Elt Ideal)) := by
  show StableHlo.after hostOps0 (W0 m ρ c) _ = _
  after_results

/-- At region 0's entry the inverse-square-root degrees are in place. -/
theorem dis2 (c : Dev nD) :
    W2 (F := Ideal) m ρ c (Proc.devRef .tc main_v14) = KVal.dis (F := Ideal) (m ((c : Thread nD τ).loc main_arg1)) := by
  have h : W2 (F := Ideal) m ρ c (Proc.devRef .tc main_v14)
      = (select (W1 (F := Ideal) m ρ c (Proc.devRef .tc main_v12)) (W1 (F := Ideal) m ρ c (Proc.devRef .tc main_v13))
          (broadcastInDim S100000 ![] bcast_S_S100000 (id (W1 (F := Ideal) m ρ c (Proc.devRef .tc main_cst_2)))) : (⟨S100000, .f32⟩ : BufTy).Contents (Elt Ideal)) := by
    host_read hostOps0_1 over (W1 (F := Ideal) m ρ c)
    rfl
  rw [h, gt1, rsq1, zero1]
  rfl

/-- The source-node list at region 0's entry. -/
theorem row2 (c : Dev nD) :
    W2 (F := Ideal) m ρ c (Proc.devRef .tc main_v3) = KVal.row (F := Ideal) (m ((c : Thread nD τ).loc main_arg1)) :=
  (host_skip hostOps0_1).trans (row1 m ρ c)

/-- The target-node list at region 0's entry. -/
theorem col2 (c : Dev nD) :
    W2 (F := Ideal) m ρ c (Proc.devRef .tc main_v6) = KVal.col (F := Ideal) (m ((c : Thread nD τ).loc main_arg1)) :=
  (host_skip hostOps0_1).trans (col1 m ρ c)

/-- An argument the first two stretches do not write. -/
theorem arg0_2 (c : Dev nD) :
    W2 (F := Ideal) m ρ c (Proc.devRef .tc main_arg0) = m ((c : Thread nD τ).loc main_arg0) :=
  (host_skip hostOps0_1).trans (host_skip hostOps0)

/-- An argument the first two stretches do not write. -/
theorem arg2_2 (c : Dev nD) :
    W2 (F := Ideal) m ρ c (Proc.devRef .tc main_arg2) = m ((c : Thread nD τ).loc main_arg2) :=
  (host_skip hostOps0_1).trans (host_skip hostOps0)

/-! ## Region 0: the first projection -/

/-- At region 0's exit the projected features are x · W1. -/
theorem proj3 (c : Dev nD) :
    W3 (F := Ideal) m ρ c (Proc.devRef .tc main_v15) = Cert.Stage.proj (M := 100000) (K := 128) (N := 128) (m ((c : Thread nD τ).loc main_arg0)) (m ((c : Thread nD τ).loc main_arg2)) :=
  ((W3_arr m ρ c 2).trans (Cert.KernelIdeal.RegVal.final0 (V2 m ρ) c)).trans
    (congrArg₂ (Cert.Stage.proj (M := 100000) (K := 128) (N := 128)) (arg0_2 m ρ c) (arg2_2 m ρ c))

/-- The source-node list at region 0's exit. -/
theorem row3 (c : Dev nD) :
    W3 (F := Ideal) m ρ c (Proc.devRef .tc main_v3) = KVal.row (F := Ideal) (m ((c : Thread nD τ).loc main_arg1)) :=
  (W3_of_ne m ρ c main_v3 (by decide)).trans (row2 m ρ c)

/-- The target-node list at region 0's exit. -/
theorem col3 (c : Dev nD) :
    W3 (F := Ideal) m ρ c (Proc.devRef .tc main_v6) = KVal.col (F := Ideal) (m ((c : Thread nD τ).loc main_arg1)) :=
  (W3_of_ne m ρ c main_v6 (by decide)).trans (col2 m ρ c)

/-- The inverse-square-root degrees at region 0's exit. -/
theorem dis3 (c : Dev nD) :
    W3 (F := Ideal) m ρ c (Proc.devRef .tc main_v14) = KVal.dis (F := Ideal) (m ((c : Thread nD τ).loc main_arg1)) :=
  (W3_of_ne m ρ c main_v14 (by decide)).trans (dis2 m ρ c)

/-! ## The stretches before region 1: the coefficients, the paddings, the gather -/

/-- The per-edge coefficients. -/
theorem norm4 (c : Dev nD) :
    W4 (F := Ideal) m ρ c (Proc.devRef .tc main_v30) = KVal.norm (F := Ideal) (m ((c : Thread nD τ).loc main_arg1)) := by
  have h : W4 (F := Ideal) m ρ c (Proc.devRef .tc main_v30) = KVal.normOf (F := Ideal) (W3 (F := Ideal) m ρ c (Proc.devRef .tc main_v14)) (W3 (F := Ideal) m ρ c (Proc.devRef .tc main_v3)) (W3 (F := Ideal) m ρ c (Proc.devRef .tc main_v6)) := by
    host_read_long hostOps1 over (W3 (F := Ideal) m ρ c)
    rfl
  rw [h, dis3, row3, col3]
  rfl

/-- The padding value of the source list. -/
theorem zero4 (c : Dev nD) :
    W4 (F := Ideal) m ρ c (Proc.devRef .tc main_c_6) = KVal.zeroI (F := Ideal) := by
  host_read_long hostOps1 over (W3 (F := Ideal) m ρ c)
  rfl

/-- The padded source list. -/
theorem rowp5 (c : Dev nD) :
    W5 (F := Ideal) m ρ c (Proc.devRef .tc main_v31) = KVal.padI (F := Ideal) (KVal.row (F := Ideal) (m ((c : Thread nD τ).loc main_arg1))) := by
  have h : W5 (F := Ideal) m ρ c (Proc.devRef .tc main_v31) = KVal.padIOf (F := Ideal) (W4 (F := Ideal) m ρ c (Proc.devRef .tc main_v3)) (W4 (F := Ideal) m ρ c (Proc.devRef .tc main_c_6)) := by
    host_read hostOps1_1 over (W4 (F := Ideal) m ρ c)
    rfl
  rw [h, zero4, show W4 (F := Ideal) m ρ c (Proc.devRef .tc main_v3) = _ from ((host_skip hostOps1).trans (row3 m ρ c))]
  rfl

/-- The padding value of the target list. -/
theorem zero6 (c : Dev nD) :
    W6 (F := Ideal) m ρ c (Proc.devRef .tc main_c_7) = KVal.zeroI (F := Ideal) := by
  host_read hostOps1_2 over (W5 (F := Ideal) m ρ c)
  rfl

/-- The padded target list. -/
theorem colp7 (c : Dev nD) :
    W7 (F := Ideal) m ρ c (Proc.devRef .tc main_v32) = KVal.padI (F := Ideal) (KVal.col (F := Ideal) (m ((c : Thread nD τ).loc main_arg1))) := by
  have h : W7 (F := Ideal) m ρ c (Proc.devRef .tc main_v32) = KVal.padIOf (F := Ideal) (W6 (F := Ideal) m ρ c (Proc.devRef .tc main_v6)) (W6 (F := Ideal) m ρ c (Proc.devRef .tc main_c_7)) := by
    host_read hostOps1_3 over (W6 (F := Ideal) m ρ c)
    rfl
  rw [h, zero6, show W6 (F := Ideal) m ρ c (Proc.devRef .tc main_v6) = _ from (((host_skip hostOps1_2).trans ((host_skip hostOps1_1).trans (host_skip hostOps1))).trans (col3 m ρ c))]
  rfl

/-- The integer whose float pads the coefficients. -/
theorem zero8 (c : Dev nD) :
    W8 (F := Ideal) m ρ c (Proc.devRef .tc main_c_8) = KVal.zeroI (F := Ideal) := by
  host_read hostOps1_4 over (W7 (F := Ideal) m ρ c)
  rfl

/-- The padded coefficients. -/
theorem normp9 (c : Dev nD) :
    W9 (F := Ideal) m ρ c (Proc.devRef .tc main_v33) = KVal.padF (F := Ideal) (KVal.norm (F := Ideal) (m ((c : Thread nD τ).loc main_arg1))) := by
  have h : W9 (F := Ideal) m ρ c (Proc.devRef .tc main_v33) = KVal.padFOf (F := Ideal) (W8 (F := Ideal) m ρ c (Proc.devRef .tc main_v30)) (W8 (F := Ideal) m ρ c (Proc.devRef .tc main_c_8)) := by
    host_read hostOps1_5 over (W8 (F := Ideal) m ρ c)
    rfl
  rw [h, zero8, show W8 (F := Ideal) m ρ c (Proc.devRef .tc main_v30) = _ from (((host_skip hostOps1_4).trans ((host_skip hostOps1_3).trans ((host_skip hostOps1_2).trans (host_skip hostOps1_1)))).trans (norm4 m ρ c))]
  rfl

/-- The padded coefficients as a column. -/
theorem normc10 (c : Dev nD) :
    W10 (F := Ideal) m ρ c (Proc.devRef .tc main_v34) = KVal.normp (F := Ideal) (m ((c : Thread nD τ).loc main_arg1)) := by
  have h : W10 (F := Ideal) m ρ c (Proc.devRef .tc main_v34) = KVal.colF (F := Ideal) (W9 (F := Ideal) m ρ c (Proc.devRef .tc main_v33)) := by
    host_read hostOps1_6 over (W9 (F := Ideal) m ρ c)
    rfl
  rw [h, normp9]
  rfl

/-- The projected rows gathered at the padded source nodes. -/
theorem gath10 (c : Dev nD) :
    W10 (F := Ideal) m ρ c (Proc.devRef .tc main_v41) = KVal.gath128 (F := Ideal) (m ((c : Thread nD τ).loc main_arg1)) (Cert.Stage.proj (M := 100000) (K := 128) (N := 128) (m ((c : Thread nD τ).loc main_arg0)) (m ((c : Thread nD τ).loc main_arg2))) := by
  have h : W10 (F := Ideal) m ρ c (Proc.devRef .tc main_v41) = KVal.gath128Of (F := Ideal) (W9 (F := Ideal) m ρ c (Proc.devRef .tc main_v31)) (W9 (F := Ideal) m ρ c (Proc.devRef .tc main_v15)) := by
    host_read hostOps1_6 over (W9 (F := Ideal) m ρ c)
    rfl
  rw [h, show W9 (F := Ideal) m ρ c (Proc.devRef .tc main_v31) = _ from (((host_skip hostOps1_5).trans ((host_skip hostOps1_4).trans ((host_skip hostOps1_3).trans (host_skip hostOps1_2)))).trans (rowp5 m ρ c)),
    show W9 (F := Ideal) m ρ c (Proc.devRef .tc main_v15) = _ from (((host_skip hostOps1_5).trans ((host_skip hostOps1_4).trans ((host_skip hostOps1_3).trans ((host_skip hostOps1_2).trans ((host_skip hostOps1_1).trans (host_skip hostOps1)))))).trans (proj3 m ρ c))]
  rfl

/-- The padded target list at region 1's entry. -/
theorem colp10 (c : Dev nD) :
    W10 (F := Ideal) m ρ c (Proc.devRef .tc main_v32) = KVal.padI (F := Ideal) (KVal.col (F := Ideal) (m ((c : Thread nD τ).loc main_arg1))) :=
  ((host_skip hostOps1_6).trans ((host_skip hostOps1_5).trans (host_skip hostOps1_4))).trans (colp7 m ρ c)

/-! ## Region 1, the accumulation, region 2 -/

/-- At region 1's exit: the gathered rows scaled by their coefficients. -/
theorem scaled11 (c : Dev nD) :
    W11 (F := Ideal) m ρ c (Proc.devRef .tc main_v42) = Cert.Stage.scaleRows (R := 1703936) (D := 128) (KVal.gath128 (F := Ideal) (m ((c : Thread nD τ).loc main_arg1)) (Cert.Stage.proj (M := 100000) (K := 128) (N := 128) (m ((c : Thread nD τ).loc main_arg0)) (m ((c : Thread nD τ).loc main_arg2)))) (KVal.normp (F := Ideal) (m ((c : Thread nD τ).loc main_arg1))) :=
  ((W11_arr m ρ c 2).trans (Cert.KernelIdeal.RegVal.final1 (V10 m ρ) c)).trans
    (congrArg₂ (Cert.Stage.scaleRows (R := 1703936) (D := 128)) (gath10 m ρ c) (normc10 m ρ c))

/-- The scaled rows accumulated at the padded target nodes. -/
theorem agg12 (c : Dev nD) :
    W12 (F := Ideal) m ρ c (Proc.devRef .tc main_v45) = KVal.agg128 (F := Ideal) (m ((c : Thread nD τ).loc main_arg1)) (Cert.Stage.scaleRows (R := 1703936) (D := 128) (KVal.gath128 (F := Ideal) (m ((c : Thread nD τ).loc main_arg1)) (Cert.Stage.proj (M := 100000) (K := 128) (N := 128) (m ((c : Thread nD τ).loc main_arg0)) (m ((c : Thread nD τ).loc main_arg2)))) (KVal.normp (F := Ideal) (m ((c : Thread nD τ).loc main_arg1)))) := by
  have h : W12 (F := Ideal) m ρ c (Proc.devRef .tc main_v45) = KVal.agg128Of (F := Ideal) (W11 (F := Ideal) m ρ c (Proc.devRef .tc main_v32)) (W11 (F := Ideal) m ρ c (Proc.devRef .tc main_v42)) := by
    host_read hostOps2 over (W11 (F := Ideal) m ρ c)
    rfl
  rw [h, scaled11, show W11 (F := Ideal) m ρ c (Proc.devRef .tc main_v32) = _ from ((W11_of_ne m ρ c main_v32 (by decide)).trans (colp10 m ρ c))]
  rfl

/-- The first shift vector is untouched up to region 2's entry. -/
theorem arg3_12 (c : Dev nD) :
    W12 (F := Ideal) m ρ c (Proc.devRef .tc main_arg3) = m ((c : Thread nD τ).loc main_arg3) :=
  ((host_skip hostOps2).trans ((W11_of_ne m ρ c main_arg3 (by decide)).trans ((host_skip hostOps1_6).trans ((host_skip hostOps1_5).trans ((host_skip hostOps1_4).trans ((host_skip hostOps1_3).trans ((host_skip hostOps1_2).trans ((host_skip hostOps1_1).trans ((host_skip hostOps1).trans ((W3_of_ne m ρ c main_arg3 (by decide)).trans ((host_skip hostOps0_1).trans (host_skip hostOps0))))))))))))

/-- The source-node list is still in place at region 2's exit. -/
theorem row13 (c : Dev nD) :
    W13 (F := Ideal) m ρ c (Proc.devRef .tc main_v3) = KVal.row (F := Ideal) (m ((c : Thread nD τ).loc main_arg1)) :=
  ((W13_of_ne m ρ c main_v3 (by decide)).trans ((host_skip hostOps2).trans ((W11_of_ne m ρ c main_v3 (by decide)).trans ((host_skip hostOps1_6).trans ((host_skip hostOps1_5).trans ((host_skip hostOps1_4).trans ((host_skip hostOps1_3).trans ((host_skip hostOps1_2).trans ((host_skip hostOps1_1).trans (host_skip hostOps1)))))))))).trans (row3 m ρ c)

/-- The target-node list is still in place at region 2's exit. -/
theorem col13 (c : Dev nD) :
    W13 (F := Ideal) m ρ c (Proc.devRef .tc main_v6) = KVal.col (F := Ideal) (m ((c : Thread nD τ).loc main_arg1)) :=
  ((W13_of_ne m ρ c main_v6 (by decide)).trans ((host_skip hostOps2).trans ((W11_of_ne m ρ c main_v6 (by decide)).trans ((host_skip hostOps1_6).trans ((host_skip hostOps1_5).trans ((host_skip hostOps1_4).trans ((host_skip hostOps1_3).trans ((host_skip hostOps1_2).trans ((host_skip hostOps1_1).trans (host_skip hostOps1)))))))))).trans (col3 m ρ c)

/-- The inverse-square-root degrees are still in place at region 2's exit. -/
theorem dis13 (c : Dev nD) :
    W13 (F := Ideal) m ρ c (Proc.devRef .tc main_v14) = KVal.dis (F := Ideal) (m ((c : Thread nD τ).loc main_arg1)) :=
  ((W13_of_ne m ρ c main_v14 (by decide)).trans ((host_skip hostOps2).trans ((W11_of_ne m ρ c main_v14 (by decide)).trans ((host_skip hostOps1_6).trans ((host_skip hostOps1_5).trans ((host_skip hostOps1_4).trans ((host_skip hostOps1_3).trans ((host_skip hostOps1_2).trans ((host_skip hostOps1_1).trans (host_skip hostOps1)))))))))).trans (dis3 m ρ c)

/-- The second weight matrix is untouched at region 2's exit. -/
theorem arg4_13 (c : Dev nD) :
    W13 (F := Ideal) m ρ c (Proc.devRef .tc main_arg4) = m ((c : Thread nD τ).loc main_arg4) :=
  ((W13_of_ne m ρ c main_arg4 (by decide)).trans ((host_skip hostOps2).trans ((W11_of_ne m ρ c main_arg4 (by decide)).trans ((host_skip hostOps1_6).trans ((host_skip hostOps1_5).trans ((host_skip hostOps1_4).trans ((host_skip hostOps1_3).trans ((host_skip hostOps1_2).trans ((host_skip hostOps1_1).trans ((host_skip hostOps1).trans ((W3_of_ne m ρ c main_arg4 (by decide)).trans ((host_skip hostOps0_1).trans (host_skip hostOps0)))))))))))))

/-- The second shift vector is untouched at region 2's exit. -/
theorem arg5_13 (c : Dev nD) :
    W13 (F := Ideal) m ρ c (Proc.devRef .tc main_arg5) = m ((c : Thread nD τ).loc main_arg5) :=
  ((W13_of_ne m ρ c main_arg5 (by decide)).trans ((host_skip hostOps2).trans ((W11_of_ne m ρ c main_arg5 (by decide)).trans ((host_skip hostOps1_6).trans ((host_skip hostOps1_5).trans ((host_skip hostOps1_4).trans ((host_skip hostOps1_3).trans ((host_skip hostOps1_2).trans ((host_skip hostOps1_1).trans ((host_skip hostOps1).trans ((W3_of_ne m ρ c main_arg5 (by decide)).trans ((host_skip hostOps0_1).trans (host_skip hostOps0)))))))))))))

/-- At region 2's exit the hidden-feature array is the first layer of the arguments. -/
theorem hidden13 (c : Dev nD) :
    W13 (F := Ideal) m ρ c (Proc.devRef .tc main_v46)
      = KVal.hidden (m ((c : Thread nD τ).loc main_arg0)) (m ((c : Thread nD τ).loc main_arg1)) (m ((c : Thread nD τ).loc main_arg2)) (m ((c : Thread nD τ).loc main_arg3)) :=
  ((W13_arr m ρ c 2).trans (Cert.KernelIdeal.RegVal.final2 (V12 m ρ) c)).trans
    (congrArg₂ (Cert.Stage.biasRelu (N := 100000) (D := 128)) (agg12 m ρ c) (arg3_12 m ρ c))

end Cert.KernelIdeal.Chain

end
-- ==== Proof.KChainB.lean ====
/-
  The kernel program's run from the exit of its third region to the return, read as values.

  Region 3 projects the hidden features; the following stretches recompute the coefficients from the same lists
  and degrees, pad them, and gather the projected rows; region 4 scales them; the next stretch accumulates them;
  region 5 shifts. So at the return the result buffer holds `KVal.out` of the arguments.
-/
import proofs.«162896_j3650722202372_1_alg».proof.Proof.ChainTactics
import proofs.«162896_j3650722202372_1_alg».proof.Proof.KVal
import proofs.«162896_j3650722202372_1_alg».proof.Proof.RegProj
import proofs.«162896_j3650722202372_1_alg».proof.Proof.RegScale
import proofs.«162896_j3650722202372_1_alg».proof.Proof.RegShift
import proofs.«162896_j3650722202372_1_alg».proof.Proof.KChainA

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

/- The launch memory and the generator registers: every statement below holds for any. -/
variable (m : (ℓ : Loc nD τ sig) → Buf (Elt Ideal) ℓ) (ρ : Dev nD → PrngReg)

/-! ## Region 3: the second projection -/

/-- At region 3's exit the projected hidden features are hidden · W2. -/
theorem proj14 (c : Dev nD) :
    W14 (F := Ideal) m ρ c (Proc.devRef .tc main_v47) = (Cert.Stage.proj (M := 100000) (K := 128) (N := 64) (KVal.hidden (m ((c : Thread nD τ).loc main_arg0)) (m ((c : Thread nD τ).loc main_arg1)) (m ((c : Thread nD τ).loc main_arg2)) (m ((c : Thread nD τ).loc main_arg3))) (m ((c : Thread nD τ).loc main_arg4))) :=
  ((W14_arr m ρ c 2).trans (Cert.KernelIdeal.RegVal.final3 (V13 m ρ) c)).trans
    (congrArg₂ (Cert.Stage.proj (M := 100000) (K := 128) (N := 64)) (hidden13 m ρ c) (arg4_13 m ρ c))

/-- The source-node list at region 3's exit. -/
theorem row14 (c : Dev nD) :
    W14 (F := Ideal) m ρ c (Proc.devRef .tc main_v3) = KVal.row (F := Ideal) (m ((c : Thread nD τ).loc main_arg1)) :=
  (W14_of_ne m ρ c main_v3 (by decide)).trans (row13 m ρ c)

/-- The target-node list at region 3's exit. -/
theorem col14 (c : Dev nD) :
    W14 (F := Ideal) m ρ c (Proc.devRef .tc main_v6) = KVal.col (F := Ideal) (m ((c : Thread nD τ).loc main_arg1)) :=
  (W14_of_ne m ρ c main_v6 (by decide)).trans (col13 m ρ c)

/-- The inverse-square-root degrees at region 3's exit. -/
theorem dis14 (c : Dev nD) :
    W14 (F := Ideal) m ρ c (Proc.devRef .tc main_v14) = KVal.dis (F := Ideal) (m ((c : Thread nD τ).loc main_arg1)) :=
  (W14_of_ne m ρ c main_v14 (by decide)).trans (dis13 m ρ c)

/-! ## The stretches before region 4: the coefficients again, the paddings, the gather -/

/-- The per-edge coefficients, recomputed from the same lists and degrees. -/
theorem norm15 (c : Dev nD) :
    W15 (F := Ideal) m ρ c (Proc.devRef .tc main_v62) = KVal.norm (F := Ideal) (m ((c : Thread nD τ).loc main_arg1)) := by
  have h : W15 (F := Ideal) m ρ c (Proc.devRef .tc main_v62) = KVal.normOf (F := Ideal) (W14 (F := Ideal) m ρ c (Proc.devRef .tc main_v14)) (W14 (F := Ideal) m ρ c (Proc.devRef .tc main_v3)) (W14 (F := Ideal) m ρ c (Proc.devRef .tc main_v6)) := by
    host_read_long hostOps4 over (W14 (F := Ideal) m ρ c)
    rfl
  rw [h, dis14, row14, col14]
  rfl

/-- The padding value of the source list. -/
theorem zero15 (c : Dev nD) :
    W15 (F := Ideal) m ρ c (Proc.devRef .tc main_c_16) = KVal.zeroI (F := Ideal) := by
  host_read_long hostOps4 over (W14 (F := Ideal) m ρ c)
  rfl

/-- The padded source list. -/
theorem rowp16 (c : Dev nD) :
    W16 (F := Ideal) m ρ c (Proc.devRef .tc main_v63) = KVal.padI (F := Ideal) (KVal.row (F := Ideal) (m ((c : Thread nD τ).loc main_arg1))) := by
  have h : W16 (F := Ideal) m ρ c (Proc.devRef .tc main_v63) = KVal.padIOf (F := Ideal) (W15 (F := Ideal) m ρ c (Proc.devRef .tc main_v3)) (W15 (F := Ideal) m ρ c (Proc.devRef .tc main_c_16)) := by
    host_read hostOps4_1 over (W15 (F := Ideal) m ρ c)
    rfl
  rw [h, zero15, show W15 (F := Ideal) m ρ c (Proc.devRef .tc main_v3) = _ from ((host_skip hostOps4).trans (row14 m ρ c))]
  rfl

/-- The padding value of the target list. -/
theorem zero17 (c : Dev nD) :
    W17 (F := Ideal) m ρ c (Proc.devRef .tc main_c_17) = KVal.zeroI (F := Ideal) := by
  host_read hostOps4_2 over (W16 (F := Ideal) m ρ c)
  rfl

/-- The target-node list, carried to where it is padded. -/
theorem col17 (c : Dev nD) :
    W17 (F := Ideal) m ρ c (Proc.devRef .tc main_v6) = KVal.col (F := Ideal) (m ((c : Thread nD τ).loc main_arg1)) :=
  ((host_skip hostOps4_2).trans ((host_skip hostOps4_1).trans (host_skip hostOps4))).trans (col14 m ρ c)

/-- The padded target list. -/
theorem colp18 (c : Dev nD) :
    W18 (F := Ideal) m ρ c (Proc.devRef .tc main_v64) = KVal.padI (F := Ideal) (KVal.col (F := Ideal) (m ((c : Thread nD τ).loc main_arg1))) := by
  have h : W18 (F := Ideal) m ρ c (Proc.devRef .tc main_v64) = KVal.padIOf (F := Ideal) (W17 (F := Ideal) m ρ c (Proc.devRef .tc main_v6)) (W17 (F := Ideal) m ρ c (Proc.devRef .tc main_c_17)) := by
    host_read hostOps4_3 over (W17 (F := Ideal) m ρ c)
    rfl
  rw [h, zero17, col17]
  rfl

/-- The integer whose float pads the coefficients. -/
theorem zero19 (c : Dev nD) :
    W19 (F := Ideal) m ρ c (Proc.devRef .tc main_c_18) = KVal.zeroI (F := Ideal) := by
  host_read hostOps4_4 over (W18 (F := Ideal) m ρ c)
  rfl

/-- The coefficients, carried to where they are padded. -/
theorem norm19 (c : Dev nD) :
    W19 (F := Ideal) m ρ c (Proc.devRef .tc main_v62) = KVal.norm (F := Ideal) (m ((c : Thread nD τ).loc main_arg1)) :=
  ((host_skip hostOps4_4).trans ((host_skip hostOps4_3).trans ((host_skip hostOps4_2).trans (host_skip hostOps4_1)))).trans (norm15 m ρ c)

/-- The padded coefficients. -/
theorem normp20 (c : Dev nD) :
    W20 (F := Ideal) m ρ c (Proc.devRef .tc main_v65) = KVal.padF (F := Ideal) (KVal.norm (F := Ideal) (m ((c : Thread nD τ).loc main_arg1))) := by
  have h : W20 (F := Ideal) m ρ c (Proc.devRef .tc main_v65) = KVal.padFOf (F := Ideal) (W19 (F := Ideal) m ρ c (Proc.devRef .tc main_v62)) (W19 (F := Ideal) m ρ c (Proc.devRef .tc main_c_18)) := by
    host_read hostOps4_5 over (W19 (F := Ideal) m ρ c)
    rfl
  rw [h, zero19, norm19]
  rfl

/-- The padded coefficients as a column. -/
theorem normc21 (c : Dev nD) :
    W21 (F := Ideal) m ρ c (Proc.devRef .tc main_v66) = KVal.normp (F := Ideal) (m ((c : Thread nD τ).loc main_arg1)) := by
  have h : W21 (F := Ideal) m ρ c (Proc.devRef .tc main_v66) = KVal.colF (F := Ideal) (W20 (F := Ideal) m ρ c (Proc.devRef .tc main_v65)) := by
    host_read hostOps4_6 over (W20 (F := Ideal) m ρ c)
    rfl
  rw [h, normp20]
  rfl

/-- The padded source list just before the gather. -/
theorem rowp20 (c : Dev nD) :
    W20 (F := Ideal) m ρ c (Proc.devRef .tc main_v63) = KVal.padI (F := Ideal) (KVal.row (F := Ideal) (m ((c : Thread nD τ).loc main_arg1))) :=
  ((host_skip hostOps4_5).trans ((host_skip hostOps4_4).trans ((host_skip hostOps4_3).trans (host_skip hostOps4_2)))).trans (rowp16 m ρ c)

/-- The projected hidden features, carried over the first three stretches. -/
theorem proj17 (c : Dev nD) :
    W17 (F := Ideal) m ρ c (Proc.devRef .tc main_v47) = (Cert.Stage.proj (M := 100000) (K := 128) (N := 64) (KVal.hidden (m ((c : Thread nD τ).loc main_arg0)) (m ((c : Thread nD τ).loc main_arg1)) (m ((c : Thread nD τ).loc main_arg2)) (m ((c : Thread nD τ).loc main_arg3))) (m ((c : Thread nD τ).loc main_arg4))) :=
  ((host_skip hostOps4_2).trans ((host_skip hostOps4_1).trans (host_skip hostOps4))).trans (proj14 m ρ c)

/-- The projected hidden features just before the gather. -/
theorem proj20 (c : Dev nD) :
    W20 (F := Ideal) m ρ c (Proc.devRef .tc main_v47) = (Cert.Stage.proj (M := 100000) (K := 128) (N := 64) (KVal.hidden (m ((c : Thread nD τ).loc main_arg0)) (m ((c : Thread nD τ).loc main_arg1)) (m ((c : Thread nD τ).loc main_arg2)) (m ((c : Thread nD τ).loc main_arg3))) (m ((c : Thread nD τ).loc main_arg4))) :=
  ((host_skip hostOps4_5).trans ((host_skip hostOps4_4).trans (host_skip hostOps4_3))).trans (proj17 m ρ c)

/-- The projected rows gathered at the padded source nodes. -/
theorem gath21 (c : Dev nD) :
    W21 (F := Ideal) m ρ c (Proc.devRef .tc main_v73) = KVal.gath64 (F := Ideal) (m ((c : Thread nD τ).loc main_arg1)) (Cert.Stage.proj (M := 100000) (K := 128) (N := 64) (KVal.hidden (m ((c : Thread nD τ).loc main_arg0)) (m ((c : Thread nD τ).loc main_arg1)) (m ((c : Thread nD τ).loc main_arg2)) (m ((c : Thread nD τ).loc main_arg3))) (m ((c : Thread nD τ).loc main_arg4))) := by
  have h : W21 (F := Ideal) m ρ c (Proc.devRef .tc main_v73) = KVal.gath64Of (F := Ideal) (W20 (F := Ideal) m ρ c (Proc.devRef .tc main_v63)) (W20 (F := Ideal) m ρ c (Proc.devRef .tc main_v47)) := by
    host_read hostOps4_6 over (W20 (F := Ideal) m ρ c)
    rfl
  rw [h, rowp20, proj20]
  rfl

/-- The padded target list at region 4's entry. -/
theorem colp21 (c : Dev nD) :
    W21 (F := Ideal) m ρ c (Proc.devRef .tc main_v64) = KVal.padI (F := Ideal) (KVal.col (F := Ideal) (m ((c : Thread nD τ).loc main_arg1))) :=
  ((host_skip hostOps4_6).trans ((host_skip hostOps4_5).trans (host_skip hostOps4_4))).trans (colp18 m ρ c)

/-! ## Region 4, the accumulation, region 5 -/

/-- At region 4's exit: the gathered rows scaled by their coefficients. -/
theorem scaled22 (c : Dev nD) :
    W22 (F := Ideal) m ρ c (Proc.devRef .tc main_v74) = (Cert.Stage.scaleRows (R := 1703936) (D := 64) (KVal.gath64 (F := Ideal) (m ((c : Thread nD τ).loc main_arg1)) (Cert.Stage.proj (M := 100000) (K := 128) (N := 64) (KVal.hidden (m ((c : Thread nD τ).loc main_arg0)) (m ((c : Thread nD τ).loc main_arg1)) (m ((c : Thread nD τ).loc main_arg2)) (m ((c : Thread nD τ).loc main_arg3))) (m ((c : Thread nD τ).loc main_arg4)))) (KVal.normp (F := Ideal) (m ((c : Thread nD τ).loc main_arg1)))) :=
  ((W22_arr m ρ c 2).trans (Cert.KernelIdeal.RegVal.final4 (V21 m ρ) c)).trans
    (congrArg₂ (Cert.Stage.scaleRows (R := 1703936) (D := 64)) (gath21 m ρ c) (normc21 m ρ c))

/-- The scaled rows accumulated at the padded target nodes. -/
theorem agg23 (c : Dev nD) :
    W23 (F := Ideal) m ρ c (Proc.devRef .tc main_v77) = KVal.agg64 (F := Ideal) (m ((c : Thread nD τ).loc main_arg1)) (Cert.Stage.scaleRows (R := 1703936) (D := 64) (KVal.gath64 (F := Ideal) (m ((c : Thread nD τ).loc main_arg1)) (Cert.Stage.proj (M := 100000) (K := 128) (N := 64) (KVal.hidden (m ((c : Thread nD τ).loc main_arg0)) (m ((c : Thread nD τ).loc main_arg1)) (m ((c : Thread nD τ).loc main_arg2)) (m ((c : Thread nD τ).loc main_arg3))) (m ((c : Thread nD τ).loc main_arg4)))) (KVal.normp (F := Ideal) (m ((c : Thread nD τ).loc main_arg1)))) := by
  have h : W23 (F := Ideal) m ρ c (Proc.devRef .tc main_v77) = KVal.agg64Of (F := Ideal) (W22 (F := Ideal) m ρ c (Proc.devRef .tc main_v64)) (W22 (F := Ideal) m ρ c (Proc.devRef .tc main_v74)) := by
    host_read hostOps5 over (W22 (F := Ideal) m ρ c)
    rfl
  rw [h, scaled22, show W22 (F := Ideal) m ρ c (Proc.devRef .tc main_v64) = _ from ((W22_of_ne m ρ c main_v64 (by decide)).trans (colp21 m ρ c))]
  rfl

/-- The second shift vector, carried over region 3 and the first stretches after it. -/
theorem arg5_18 (c : Dev nD) :
    W18 (F := Ideal) m ρ c (Proc.devRef .tc main_arg5) = m ((c : Thread nD τ).loc main_arg5) :=
  ((host_skip hostOps4_3).trans ((host_skip hostOps4_2).trans ((host_skip hostOps4_1).trans ((host_skip hostOps4).trans (W14_of_ne m ρ c main_arg5 (by decide)))))).trans (arg5_13 m ρ c)

/-- The second shift vector is untouched up to region 5's entry. -/
theorem arg5_23 (c : Dev nD) :
    W23 (F := Ideal) m ρ c (Proc.devRef .tc main_arg5) = m ((c : Thread nD τ).loc main_arg5) :=
  ((host_skip hostOps5).trans ((W22_of_ne m ρ c main_arg5 (by decide)).trans ((host_skip hostOps4_6).trans ((host_skip hostOps4_5).trans (host_skip hostOps4_4))))).trans (arg5_18 m ρ c)

/-- At the last boundary the result buffer holds the two-layer function of the six arguments. -/
theorem result24 (c : Dev nD) :
    W24 (F := Ideal) m ρ c (Proc.devRef .tc main_v78)
      = KVal.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W24_arr m ρ c 2).trans (Cert.KernelIdeal.RegVal.final5 (V23 m ρ) c)).trans
    (congrArg₂ (Cert.Stage.bias (N := 100000) (D := 64)) (agg23 m ρ c) (arg5_23 m ρ c))

end Cert.KernelIdeal.Chain

end
-- ==== Proof.LibRowScatter.lean ====
/-
  A row scatter-add at the ideal instance, read at an entry, and the sum of a zero-padded list of rows.

  `segment_sum` of an [R, D] array of rows into an [N, D] array prints as an accumulating scatter whose one
  scatter index per row names the destination row and whose window is the row itself. At the ideal instance its
  value at (i, j) is the operand's entry plus the sum, over the rows r whose index is i, of the update's entry
  (r, j): a row whose index is negative or past the end lands nowhere and contributes nothing. The dimension
  numbers enter only through their four printed values.

  The second fact is about two such sums, one over R rows and one over Rp ≥ R rows that agree on the first R
  rows and whose extra rows carry zero: they are equal.
-/
import Idealize.ShloMosaic.Lib.ValueIdx
import Idealize.ShloMosaic.PureOps.Ideal.Laws
import Mathlib.Data.Fin.Embedding

noncomputable section

namespace Cert.Lib.RowScatter

open Idealize.ShloMosaic Idealize.ShloMosaic.ValueIdx

section
variable {N R D : Nat} (d : ScatterDims ⟨2, ![N, D]⟩ ⟨2, ![R, 1]⟩ ⟨2, ![R, D]⟩)

/-- The two axes of a rank-2 shape are distinct. -/
theorem zero_ne_one_fin2 : (0 : Fin 2) ≠ 1 := by decide

/-- With axis 0 the one inserted window axis, the operand's remaining axes are axis 1 alone. -/
theorem sKept_eq (hiw : d.insertedWindowDims = [0]) : d.sKept = [1] := by
  show Shape.kept _ d.insertedWindowDims = [1]
  rw [hiw]; rfl

/-- With axis 1 the one update window axis, an update scatter axis is axis 0: the coordinate there is the row. -/
theorem coord_uScatter (huw : d.updateWindowDims = [1]) (j : (⟨2, ![R, D]⟩ : Shape).Idx)
    (k : Fin (⟨2, ![R, D]⟩ : Shape).rank) (hk : k ∈ d.uScatter) : (j k).val = (j 0).val := by
  have hk' : k ∉ d.updateWindowDims := by
    have h2 := (List.mem_filter.1 hk).2
    simpa using h2
  rw [huw, List.mem_singleton] at hk'
  match k, hk' with
  | ⟨0, _⟩, _ => rfl
  | ⟨1, _⟩, hk' => exact absurd rfl hk'

/-- With axis 1 the one update window axis, the coordinate on an update window axis is the column. -/
theorem coord_window (huw : d.updateWindowDims = [1]) (j : (⟨2, ![R, D]⟩ : Shape).Idx)
    (k : Fin (⟨2, ![R, D]⟩ : Shape).rank) (hk : k ∈ d.updateWindowDims) : (j k).val = (j 1).val := by
  rw [huw, List.mem_singleton] at hk
  subst hk; rfl

/-- The window of update (r, b) starts, on operand axis 0, at row r's scatter index read signed. -/
theorem start_zero (hsd : d.scatterDimsToOperandDims = [0]) (hiv : d.indexVectorDim = 1)
    (huw : d.updateWindowDims = [1]) (idx : IVec ⟨2, ![R, 1]⟩ 32) (r : Fin R) (b : Fin D) :
    d.start (ix2 r b) idx 0 = (idx (ix2 r (0 : Fin 1))).toInt := by
  have hm : (0 : Fin 2) ∈ d.scatterDimsToOperandDims := by rw [hsd]; exact List.mem_singleton.mpr rfl
  unfold ScatterDims.start
  rw [dif_pos hm]
  congr 2
  funext a
  match a with
  | ⟨0, _⟩ =>
    -- axis 0 of the scatter indices is read at the update's coordinate on its one scatter axis, the row
    unfold ScatterDims.siIdx
    rw [dif_neg (by rw [hiv]; simp)]
    unfold ScatterDims.siCoord
    apply Fin.ext
    simp only [Fin.val_cast]
    exact coord_uScatter d huw (ix2 r b) _ (List.getElem_mem _)
  | ⟨1, _⟩ =>
    -- axis 1 is the index vector's: the component read is the position of operand axis 0 in the map, 0
    unfold ScatterDims.siIdx
    rw [dif_pos (by rw [hiv])]
    apply Fin.ext
    show List.idxOf (0 : Fin 2) d.scatterDimsToOperandDims = 0
    rw [hsd]; simp

/-- Operand axis 1 is not named by the map: the window starts at 0 there. -/
theorem start_one (hsd : d.scatterDimsToOperandDims = [0]) (j : (⟨2, ![R, D]⟩ : Shape).Idx)
    (idx : IVec ⟨2, ![R, 1]⟩ 32) : d.start j idx 1 = 0 := by
  unfold ScatterDims.start
  rw [dif_neg (by rw [hsd, List.mem_singleton]; exact fun h => zero_ne_one_fin2 h.symm)]

/-- Operand axis 0 is inserted: the window coordinate there is 0. -/
theorem window_zero (hiw : d.insertedWindowDims = [0]) (j : (⟨2, ![R, D]⟩ : Shape).Idx) : d.window j 0 = 0 := by
  unfold ScatterDims.window
  rw [dif_neg (by rw [sKept_eq d hiw, List.mem_singleton]; exact zero_ne_one_fin2)]

/-- On operand axis 1 the window coordinate is the update's column. -/
theorem window_one (hiw : d.insertedWindowDims = [0]) (huw : d.updateWindowDims = [1])
    (j : (⟨2, ![R, D]⟩ : Shape).Idx) : d.window j 1 = (j 1).val := by
  unfold ScatterDims.window
  rw [dif_pos (by rw [sKept_eq d hiw]; exact List.mem_singleton.mpr rfl)]
  exact coord_window d huw j _ (List.getElem_mem _)

/-- Update (r, b) lands at (i, j) exactly when its column is j and row r's signed scatter index is i: start plus
    window is (index, b), inside the operand on axis 1 always and on axis 0 exactly when the index is a row. -/
theorem resultIdx_eq_some_iff (huw : d.updateWindowDims = [1]) (hiw : d.insertedWindowDims = [0])
    (hsd : d.scatterDimsToOperandDims = [0]) (hiv : d.indexVectorDim = 1)
    (idx : IVec ⟨2, ![R, 1]⟩ 32) (r : Fin R) (b : Fin D) (i : Fin N) (j : Fin D) :
    d.resultIdx? (ix2 r b) idx = some (ix2 i j)
      ↔ b = j ∧ (idx (ix2 r (0 : Fin 1))).toInt = (i.val : Int) := by
  have hs0 := start_zero d hsd hiv huw idx r b
  have hs1 := start_one d hsd (ix2 r b) idx
  have hw0 := window_zero d hiw (ix2 r b)
  have hw1 : d.window (ix2 r b) 1 = b.val := window_one d hiw huw (ix2 r b)
  have hi := i.isLt
  have hb := b.isLt
  unfold ScatterDims.resultIdx?
  split
  · next h =>
    rw [Option.some.injEq]
    constructor
    · intro he
      have e0 : (d.start (ix2 r b) idx 0 + (d.window (ix2 r b) 0 : Int)).toNat = i.val :=
        congrArg Fin.val (congrFun he 0)
      have e1 : (d.start (ix2 r b) idx 1 + (d.window (ix2 r b) 1 : Int)).toNat = j.val :=
        congrArg Fin.val (congrFun he 1)
      have h0 := (h 0).1
      rw [hs0, hw0] at e0 h0
      rw [hs1, hw1] at e1
      exact ⟨Fin.ext (by omega), by omega⟩
    · rintro ⟨hbj, ht⟩
      funext a
      match a with
      | ⟨0, _⟩ =>
        apply Fin.ext
        show (d.start (ix2 r b) idx 0 + (d.window (ix2 r b) 0 : Int)).toNat = i.val
        rw [hs0, hw0, ht]; omega
      | ⟨1, _⟩ =>
        apply Fin.ext
        show (d.start (ix2 r b) idx 1 + (d.window (ix2 r b) 1 : Int)).toNat = j.val
        rw [hs1, hw1, hbj]; omega
  · next h =>
    constructor
    · intro he; exact absurd he (by simp)
    · rintro ⟨hbj, ht⟩
      exfalso; apply h
      intro a
      match a with
      | ⟨0, _⟩ =>
        show 0 ≤ d.start (ix2 r b) idx 0 + (d.window (ix2 r b) 0 : Int)
          ∧ d.start (ix2 r b) idx 0 + (d.window (ix2 r b) 0 : Int) < (N : Int)
        rw [hs0, hw0, ht]; omega
      | ⟨1, _⟩ =>
        show 0 ≤ d.start (ix2 r b) idx 1 + (d.window (ix2 r b) 1 : Int)
          ∧ d.start (ix2 r b) idx 1 + (d.window (ix2 r b) 1 : Int) < (D : Int)
        rw [hs1, hw1]; omega

end

/-- The accumulating row scatter read at (i, j): the operand there plus the sum over the rows whose (signed)
    index is i of the update at (r, j). -/
theorem scatterAdd_rows_apply {N R D : Nat} (d : ScatterDims ⟨2, ![N, D]⟩ ⟨2, ![R, 1]⟩ ⟨2, ![R, D]⟩)
    (huw : d.updateWindowDims = [1]) (hiw : d.insertedWindowDims = [0])
    (hsd : d.scatterDimsToOperandDims = [0]) (hiv : d.indexVectorDim = 1)
    (x : FVec Ideal ⟨2, ![N, D]⟩ .f32) (idx : IVec ⟨2, ![R, 1]⟩ 32) (upd : FVec Ideal ⟨2, ![R, D]⟩ .f32)
    (i : Fin N) (j : Fin D) :
    Host.scatterAdd d x idx upd (ix2 i j)
      = x (ix2 i j) + ∑ r ∈ Finset.univ.filter (fun r : Fin R => (idx (ix2 r (0 : Fin 1))).toInt = (i.val : Int)),
          upd (ix2 r j) := by
  unfold Host.scatterAdd
  rw [Ideal.hostScatterAdd_def]
  unfold Ideal.hostScatterAdd
  show x (ix2 i j) + _ = x (ix2 i j) + _
  congr 1
  -- both sides as sums of an `if`, the left one over rows then columns
  rw [Finset.sum_filter, sum_idx2, Finset.sum_filter]
  refine Finset.sum_congr rfl (fun r _ => ?_)
  simp only [resultIdx_eq_some_iff d huw hiw hsd hiv idx r _ i j]
  by_cases ht : (idx (ix2 r (0 : Fin 1))).toInt = (i.val : Int)
  · -- row r is selected: of its columns only j contributes
    simp only [ht, and_true]
    rw [Finset.sum_ite_eq']
    simp only [Finset.mem_univ, if_true]
  · -- row r is not selected: every term is zero
    simp only [ht, and_false, if_false, Finset.sum_const_zero]

/-- Two filtered sums, over `Fin Rp` and over `Fin R` with R ≤ Rp, that agree row by row on the first R rows
    (the same rows selected, the same terms) and whose rows from R on carry zero, are equal. -/
theorem sum_filter_pad {R Rp : Nat} (h : R ≤ Rp) (p : Fin Rp → Prop) [DecidablePred p] (q : Fin R → Prop)
    [DecidablePred q] (f : Fin Rp → EReal) (g : Fin R → EReal)
    (hpq : ∀ r : Fin R, p (Fin.castLE h r) ↔ q r) (hfg : ∀ r : Fin R, f (Fin.castLE h r) = g r)
    (hz : ∀ r : Fin Rp, R ≤ r.val → f r = 0) :
    ∑ r ∈ Finset.univ.filter p, f r = ∑ r ∈ Finset.univ.filter q, g r := by
  -- the short sum, carried along the inclusion of the first R rows, is a sum of f over the image
  have hR : ∑ r ∈ Finset.univ.filter q, g r
      = ∑ r ∈ (Finset.univ.filter q).map (Fin.castLEEmb h), f r := by
    rw [Finset.sum_map]
    exact Finset.sum_congr rfl (fun r _ => (hfg r).symm)
  rw [hR]
  symm
  apply Finset.sum_subset
  · -- the image lies among the selected rows
    intro r hr
    obtain ⟨a, ha, rfl⟩ := Finset.mem_map.1 hr
    exact Finset.mem_filter.2 ⟨Finset.mem_univ _, (hpq a).2 (Finset.mem_filter.1 ha).2⟩
  · -- a selected row outside the image is a row from R on, where f vanishes
    intro r hr hnr
    apply hz
    by_contra hlt
    apply hnr
    have hlt' : r.val < R := Nat.lt_of_not_le hlt
    refine Finset.mem_map.2 ⟨⟨r.val, hlt'⟩, ?_, Fin.ext rfl⟩
    exact Finset.mem_filter.2 ⟨Finset.mem_univ _, (hpq ⟨r.val, hlt'⟩).1 (Finset.mem_filter.1 hr).2⟩

end Cert.Lib.RowScatter

end
-- ==== Proof.LibRowGather.lean ====
/-
  A row gather read at an entry.

  `table[idx]` over a rank-2 table [N, D] with one start index per result row prints as a gather whose operand
  axis 0 is collapsed and start-indexed and whose axis 1 is the offset axis with a full-width slice. Result entry
  (r, j) is the table's entry (k, j), where k is row r's start index read signed and clamped into [0, N - 1]: a
  negative index reads row 0, one past the end reads the last row. The dimension numbers enter only through their
  printed values.
-/
import Idealize.ShloMosaic.Lib.ValueIdx

noncomputable section

namespace Cert.Lib.RowGather

open Idealize.ShloMosaic Idealize.ShloMosaic.ValueIdx

/-- The row gather read at (r, j). -/
theorem gather_rows_apply {α : Type} {N R D w : Nat} (d : GatherDims ⟨2, ![N, D]⟩ ⟨2, ![R, 1]⟩ ⟨2, ![R, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![R, 1]⟩ w) (r : Fin R) (j : Fin D) (hN : 0 < N) :
    Host.gather d x idx (ix2 r j)
      = x (ix2 (⟨min (idx (ix2 r (0 : Fin 1))).toInt.toNat (N - 1), by omega⟩ : Fin N) j) := by
  unfold Host.gather
  congr 1
  funext a
  apply Fin.ext
  -- a result axis that is a batch axis is axis 0, one that is an offset axis is axis 1
  have ebatch : ∀ X : Fin 2, X ∈ d.batchDims → ((ix2 r j : (⟨2, ![R, D]⟩ : Shape).Idx) X).val = r.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  have eoff : ∀ X : Fin 2, X ∈ d.offsetDims → ((ix2 r j : (⟨2, ![R, D]⟩ : Shape).Idx) X).val = j.val := by
    intro X hX
    rw [hoff] at hX
    rw [List.mem_singleton.mp hX]
    rfl
  match a with
  | ⟨0, _⟩ =>
    have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r j) idx 0 + d.batchCoord (ix2 r j) 0 + d.offCoord (ix2 r j) 0
      = min (idx (ix2 r (0 : Fin 1))).toInt.toNat (N - 1)
    rw [GatherDims.batchCoord_eq_zero _ _ _ hb, GatherDims.offCoord_eq_zero _ _ _ hk, Nat.add_zero]
    unfold GatherDims.start
    rw [dif_pos hm]
    show min (idx _).toInt.toNat (N - d.sliceSizes 0) = min (idx (ix2 r (0 : Fin 1))).toInt.toNat (N - 1)
    rw [hsl]
    congr 3
    congr 1
    funext b
    apply Fin.ext
    match b with
    | ⟨0, _⟩ =>
      unfold GatherDims.siIdx
      rw [dif_neg (by rw [hivd]; simp)]
      unfold GatherDims.siCoord
      simp only [Fin.val_cast]
      exact ebatch _ (List.getElem_mem _)
    | ⟨1, _⟩ =>
      unfold GatherDims.siIdx
      rw [dif_pos (by rw [hivd])]
      show List.idxOf (0 : Fin 2) d.startIndexMap = 0
      rw [hsim]; simp
  | ⟨1, _⟩ =>
    have hb : (1 : Fin 2) ∉ d.operandBatchingDims := by rw [hob]; exact List.not_mem_nil
    have hk : (1 : Fin 2) ∈ d.sKept := by rw [GatherDims.mem_sKept, hcoll, hob]; simp
    have hm : (1 : Fin 2) ∉ d.startIndexMap := by rw [hsim]; simp
    show d.start (ix2 r j) idx 1 + d.batchCoord (ix2 r j) 1 + d.offCoord (ix2 r j) 1 = j.val
    rw [GatherDims.batchCoord_eq_zero _ _ _ hb, Nat.add_zero]
    unfold GatherDims.start
    rw [dif_neg hm, Nat.zero_add]
    unfold GatherDims.offCoord
    rw [dif_pos hk]
    exact eoff _ (List.getElem_mem _)

end Cert.Lib.RowGather

end
-- ==== Proof.Layer.lean ====
/-
  One aggregation step, padded and unpadded.

  Take a table P of N rows. The unpadded step gathers R rows of P along a start-index column, multiplies entry
  (r, j) by a coefficient, and accumulates row r at the destination its index column names. The padded step does
  the same over Rp ≥ R rows, scaling row r by one coefficient per row. If the two index columns and the
  coefficients agree on the first R rows, and the padded coefficients vanish from row R on, the two accumulated
  arrays are equal: the extra rows contribute P (k, j) * 0 = 0 to wherever they land, and the sum over the rows
  landing at a destination does not depend on how the rows are listed.
-/
import proofs.«162896_j3650722202372_1_alg».proof.Proof.Stage
import proofs.«162896_j3650722202372_1_alg».proof.Proof.LibRowScatter
import proofs.«162896_j3650722202372_1_alg».proof.Proof.LibRowGather

noncomputable section

namespace Cert.Layer

open Idealize.ShloMosaic Idealize.ShloMosaic.ValueIdx Cert.Stage Cert.Lib.RowScatter Cert.Lib.RowGather

theorem agg_pad_eq {N R Rp D : Nat} (hR : R ≤ Rp) (hN : 0 < N)
    (dsK : ScatterDims ⟨2, ![N, D]⟩ ⟨2, ![Rp, 1]⟩ ⟨2, ![Rp, D]⟩)
    (sK1 : dsK.updateWindowDims = [1]) (sK2 : dsK.insertedWindowDims = [0])
    (sK3 : dsK.scatterDimsToOperandDims = [0]) (sK4 : dsK.indexVectorDim = 1)
    (dsR : ScatterDims ⟨2, ![N, D]⟩ ⟨2, ![R, 1]⟩ ⟨2, ![R, D]⟩)
    (sR1 : dsR.updateWindowDims = [1]) (sR2 : dsR.insertedWindowDims = [0])
    (sR3 : dsR.scatterDimsToOperandDims = [0]) (sR4 : dsR.indexVectorDim = 1)
    (dgK : GatherDims ⟨2, ![N, D]⟩ ⟨2, ![Rp, 1]⟩ ⟨2, ![Rp, D]⟩)
    (gK1 : dgK.offsetDims = [1]) (gK2 : dgK.collapsedSliceDims = [0]) (gK3 : dgK.operandBatchingDims = [])
    (gK4 : dgK.startIndicesBatchingDims = []) (gK5 : dgK.startIndexMap = [0]) (gK6 : dgK.indexVectorDim = 1)
    (gK7 : dgK.sliceSizes = ![1, D])
    (dgR : GatherDims ⟨2, ![N, D]⟩ ⟨2, ![R, 1]⟩ ⟨2, ![R, D]⟩)
    (gR1 : dgR.offsetDims = [1]) (gR2 : dgR.collapsedSliceDims = [0]) (gR3 : dgR.operandBatchingDims = [])
    (gR4 : dgR.startIndicesBatchingDims = []) (gR5 : dgR.startIndexMap = [0]) (gR6 : dgR.indexVectorDim = 1)
    (gR7 : dgR.sliceSizes = ![1, D])
    (z P : FVec Ideal ⟨2, ![N, D]⟩ .f32)
    (cK : IVec ⟨2, ![Rp, 1]⟩ 32) (cR : IVec ⟨2, ![R, 1]⟩ 32)
    (iK : IVec ⟨2, ![Rp, 1]⟩ 32) (iR : IVec ⟨2, ![R, 1]⟩ 32)
    (nK : FVec Ideal ⟨2, ![Rp, 1]⟩ .f32) (nR : FVec Ideal ⟨2, ![R, D]⟩ .f32)
    (hc : ∀ r : Fin R, cK (ix2 (Fin.castLE hR r) (0 : Fin 1)) = cR (ix2 r (0 : Fin 1)))
    (hi : ∀ r : Fin R, iK (ix2 (Fin.castLE hR r) (0 : Fin 1)) = iR (ix2 r (0 : Fin 1)))
    (hn : ∀ (r : Fin R) (j : Fin D), nK (ix2 (Fin.castLE hR r) (0 : Fin 1)) = nR (ix2 r j))
    (hz : ∀ r : Fin Rp, R ≤ r.val → nK (ix2 r (0 : Fin 1)) = 0) :
    Host.scatterAdd (F := Ideal) dsK z cK (scaleRows (Host.gather dgK P iK) nK)
      = Host.scatterAdd (F := Ideal) dsR z cR (mulf (Host.gather dgR P iR) nR) := by
  funext i
  obtain ⟨p, j, rfl⟩ : ∃ (p : Fin N) (j : Fin D), i = ix2 p j := ⟨i 0, i 1, eq_ix2 i⟩
  rw [scatterAdd_rows_apply dsK sK1 sK2 sK3 sK4, scatterAdd_rows_apply dsR sR1 sR2 sR3 sR4]
  refine congrArg (fun s => z (ix2 p j) + s) ?_
  refine sum_filter_pad hR _ _ _ _ (fun r => ?_) (fun r => ?_) (fun r hr => ?_)
  · -- the same rows are selected: the index columns agree on the first R rows
    show (cK (ix2 (Fin.castLE hR r) (0 : Fin 1))).toInt = (p.val : Int) ↔ (cR (ix2 r (0 : Fin 1))).toInt = (p.val : Int)
    rw [hc r]
  · -- the same terms: the same table row is gathered and the same coefficient multiplies it
    show scaleRows (Host.gather dgK P iK) nK (ix2 (Fin.castLE hR r) j) = mulf (Host.gather dgR P iR) nR (ix2 r j)
    rw [scaleRows_apply, mulf_apply, gather_rows_apply dgK gK1 gK2 gK3 gK4 gK5 gK6 gK7 P iK _ j hN,
      gather_rows_apply dgR gR1 gR2 gR3 gR4 gR5 gR6 gR7 P iR r j hN, hn r j]
    simp only [hi r]
  · -- a padding row carries the coefficient zero
    show scaleRows (Host.gather dgK P iK) nK (ix2 r j) = 0
    rw [scaleRows_apply, hz r hr, mul_zero]

end Cert.Layer

end
-- ==== Proof.PadFacts.lean ====
/-
  The kernel's padded lists against the reference's lists, entry by entry.

  Both programs build the source and target node lists, the degrees and the per-edge coefficients from the edge
  list by the same operations; the reference multiplies the coefficient by a constant one in between, which
  changes nothing. The kernel then pads the two lists with the node 0 and the coefficients with 0 up to 1703936
  entries. So on the first 1700000 rows the kernel's padded target list, its padded start indices and its padded
  coefficient column read what the reference's unpadded ones read, and from row 1700000 on the coefficient is 0.
-/
import proofs.«162896_j3650722202372_1_alg».proof.Proof.KVal
import proofs.«162896_j3650722202372_1_alg».proof.Proof.RefRead
import Idealize.ShloMosaic.Lib.Pipeline.Value
import Idealize.ShloMosaic.Lib.ValueIdx
import Idealize.ShloMosaic.Lib.KernelVsHost
import Idealize.ShloMosaic.Lib.IdealHost
import Idealize.ShloMosaic.PureOps.Ideal.Laws

noncomputable section

namespace Cert.PadFacts

open Idealize.ShloMosaic Idealize.ShloMosaic.ValueIdx
open Cert.KernelIdeal.KVal Cert.ReferenceIdeal.ReadP

/-! ## The two programs build the same lists

Stated for every float instance: the two sides are the same composition of the same operations of the edge list. -/

section Same
variable {F : FTy → Type} [FloatOps F] (e : (⟨Cert.KernelIdeal.S2x1600000, .i32⟩ : BufTy).Contents (Elt F))

/-- The source-node lists agree. -/
private theorem row_eq : row (F := F) e = val_main_v3 (F := F) e := rfl
/-- The target-node lists agree. -/
private theorem col_eq : col (F := F) e = val_main_v6 (F := F) e := rfl
/-- The source list as start indices is the reference's start-index column (128-column layer) … -/
private theorem nidx_row37 : nidx (F := F) (row (F := F) e) = val_main_v37 (F := F) e := rfl
/-- … and its copy in the 64-column layer. -/
private theorem nidx_row55 : nidx (F := F) (row (F := F) e) = val_main_v55 (F := F) e := rfl
/-- The inverse square roots gathered at the source nodes agree … -/
private theorem g1_eq : Host.gather Cert.KernelIdeal.gather_S100000_S1700000x1_S1700000_n_0_n_n_0_1_1 (dis (F := F) e)
    (nidx (F := F) (row (F := F) e)) = val_main_v21 (F := F) e := rfl
/-- … and so do the ones gathered at the target nodes. -/
private theorem g2_eq : Host.gather Cert.KernelIdeal.gather_S100000_S1700000x1_S1700000_n_0_n_n_0_1_1 (dis (F := F) e)
    (nidx (F := F) (col (F := F) e)) = val_main_v29 (F := F) e := rfl

end Same

/-! ## Columns and end padding, read at a row -/

section Reads
variable {α : Type}

/-- A list of `n ≠ 1` entries laid as an [n, 1] column reads entry `r` at row `r`. -/
private theorem column_apply {n : Nat} (hn : n ≠ 1) (h : (⟨1, ![n]⟩ : Shape).BroadcastsInDim ⟨2, ![n, 1]⟩ ![0])
    (x : (⟨1, ![n]⟩ : Shape).Idx → α) (r : Fin n) :
    broadcastInDim ⟨2, ![n, 1]⟩ ![0] h x (ix2 r (0 : Fin 1)) = x (ix1 r) :=
  broadcastInDim_apply _ h x (ix2 r (0 : Fin 1)) (ix1 r) (fun a => match a with
    | ⟨0, _⟩ => by show r.val = if n = 1 then 0 else r.val; rw [if_neg hn])

/-- A list recast as an [m, 1] column reads entry `r` at row `r`. -/
private theorem cast_column_apply {m : Nat} (h : (⟨1, ![m]⟩ : Shape).ShapeCasts ⟨2, ![m, 1]⟩)
    (x : (⟨1, ![m]⟩ : Shape).Idx → α) (r : Fin m) :
    shapeCast ⟨2, ![m, 1]⟩ x h (ix2 r (0 : Fin 1)) = x (ix1 r) :=
  shapeCast_apply x h (ix2 r (0 : Fin 1)) (ix1 r) (by
    rw [Shape.rowMajor_val_two, Shape.rowMajor_val_one]; show r.val = r.val * 1 + 0; omega)

/-- A list padded at its end reads the list itself before the padding … -/
private theorem pad_end_inside {n m p : Nat} (hnm : n ≤ m) (h : (⟨1, ![n]⟩ : Shape).Pads ![0] ![p] ![0] ⟨1, ![m]⟩)
    {u : Shape} (v : u.Idx → α) (hu : 0 < u.numel) (x : (⟨1, ![n]⟩ : Shape).Idx → α) (r : Fin n) :
    pad ⟨1, ![m]⟩ ![0] ![p] ![0] x v h hu (ix1 (Fin.castLE hnm r)) = x (ix1 r) :=
  pad_apply_of_inside _ _ _ x v h hu _ (ix1 r) (fun a => match a with
    | ⟨0, _⟩ => by show r.val = 0 + r.val * (0 + 1); omega)

/-- … and the padding value from the list's end on. -/
private theorem pad_end_outside {n m p : Nat} (h : (⟨1, ![n]⟩ : Shape).Pads ![0] ![p] ![0] ⟨1, ![m]⟩)
    {u : Shape} (v : u.Idx → α) (hu : 0 < u.numel) (x : (⟨1, ![n]⟩ : Shape).Idx → α) (r : Fin m) (hr : n ≤ r.val) :
    pad ⟨1, ![m]⟩ ![0] ![p] ![0] x v h hu (ix1 r) = v (Shape.Idx.first hu) :=
  pad_apply_of_not_inside _ _ _ x v h hu _ (0 : Fin 1) (by
    show ¬(0 ≤ r.val ∧ (r.val - 0) % (0 + 1) = 0 ∧ (r.val - 0) / (0 + 1) < n); omega)

/-- "Shift a negative entry up" reads the same at two places where the lists and the two constants read the same. -/
private theorem shifted_apply {s t : Shape} (w c0w c1w : IVec t 32) (v c0v c1v : IVec s 32) (i' : t.Idx) (i : s.Idx)
    (hv : w i' = v i) (h0 : c0w i' = c0v i) (h1 : c1w i' = c1v i) :
    select (cmpi .slt w c0w) (addi w c1w) w i' = select (cmpi .slt v c0v) (addi v c1v) v i := by
  rw [select_apply, select_apply]
  show Scalar.select (IntOp.cmpi .slt (w i') (c0w i')) (IntOp.addi (w i') (c1w i')) (w i')
    = Scalar.select (IntOp.cmpi .slt (v i) (c0v i)) (IntOp.addi (v i) (c1v i)) (v i)
  rw [hv, h0, h1]

/-- A factor one in between changes nothing: x · 1 · y = x · y. -/
private theorem mulf_one_mulf {s : Shape} (g1 ones g2 : FVec Ideal s .f32) (i : s.Idx) (h : ones i = 1) :
    mulf (mulf g1 ones) g2 i = mulf g1 g2 i := by
  rw [mulf_apply, mulf_apply, mulf_apply, h, mul_one]

end Reads

/-- There are at most as many real rows as padded rows. -/
theorem hle : 1700000 ≤ 1703936 := by decide

/- The edge list: every statement below holds for any. -/
variable (e : (⟨Cert.KernelIdeal.S2x1600000, .i32⟩ : BufTy).Contents (Elt Ideal))

/-- The padded target-node column reads the target-node list on the real rows. -/
private theorem colp_real (r : Fin 1700000) :
    colp (F := Ideal) e (ix2 (Fin.castLE hle r) (0 : Fin 1)) = col (F := Ideal) e (ix1 r) := by
  have h1 : colp (F := Ideal) e (ix2 (Fin.castLE hle r) (0 : Fin 1)) = _ := column_apply (by decide) _ _ _
  rw [h1]
  exact pad_end_inside hle _ _ _ _ r

/-- The kernel's padded target-node column reads the reference's target-node column on the real rows (128-column layer). -/
theorem col_pad128 (r : Fin 1700000) :
    colp (F := Ideal) e (ix2 (Fin.castLE hle r) (0 : Fin 1))
      = val_main_v43 (F := Ideal) e (ix2 r (0 : Fin 1)) := by
  have h3 : val_main_v43 (F := Ideal) e (ix2 r (0 : Fin 1)) = _ := column_apply (by decide) _ _ _
  rw [colp_real, h3, col_eq]

/-- The same against the 64-column layer's copy of the reference's target-node column. -/
theorem col_pad64 (r : Fin 1700000) :
    colp (F := Ideal) e (ix2 (Fin.castLE hle r) (0 : Fin 1))
      = val_main_v61 (F := Ideal) e (ix2 r (0 : Fin 1)) := by
  have h3 : val_main_v61 (F := Ideal) e (ix2 r (0 : Fin 1)) = _ := column_apply (by decide) _ _ _
  rw [colp_real, h3, col_eq]

/-- The start indices of a padded list read, on the real rows, the start indices of the list. -/
private theorem nidxp_padI (v : (⟨Cert.KernelIdeal.S1700000, .i32⟩ : BufTy).Contents (Elt Ideal)) (r : Fin 1700000) :
    nidxp (F := Ideal) (padI (F := Ideal) v) (ix2 (Fin.castLE hle r) (0 : Fin 1)) = nidx (F := Ideal) v (ix2 r (0 : Fin 1)) := by
  have hp : padI (F := Ideal) v (ix1 (Fin.castLE hle r)) = v (ix1 r) := pad_end_inside hle _ _ _ v r
  have h1 : nidxp (F := Ideal) (padI (F := Ideal) v) (ix2 (Fin.castLE hle r) (0 : Fin 1)) = _ := column_apply (by decide) _ _ _
  have h2 : nidx (F := Ideal) v (ix2 r (0 : Fin 1)) = _ := column_apply (by decide) _ _ _
  rw [h1, h2]
  exact shifted_apply _ _ _ _ _ _ _ _ hp rfl rfl

/-- The kernel's padded start indices read the reference's start indices on the real rows (128-column layer). -/
theorem row_pad128 (r : Fin 1700000) :
    nidxp (F := Ideal) (padI (F := Ideal) (row (F := Ideal) e)) (ix2 (Fin.castLE hle r) (0 : Fin 1))
      = val_main_v37 (F := Ideal) e (ix2 r (0 : Fin 1)) := by
  rw [nidxp_padI, nidx_row37]

/-- The same against the 64-column layer's copy of the reference's start indices. -/
theorem row_pad64 (r : Fin 1700000) :
    nidxp (F := Ideal) (padI (F := Ideal) (row (F := Ideal) e)) (ix2 (Fin.castLE hle r) (0 : Fin 1))
      = val_main_v55 (F := Ideal) e (ix2 r (0 : Fin 1)) := by
  rw [nidxp_padI, nidx_row55]

/-- The padded coefficient column reads the coefficient on the real rows. -/
private theorem normp_real (r : Fin 1700000) :
    normp (F := Ideal) e (ix2 (Fin.castLE hle r) (0 : Fin 1)) = norm (F := Ideal) e (ix1 r) := by
  have h1 : normp (F := Ideal) e (ix2 (Fin.castLE hle r) (0 : Fin 1)) = _ := cast_column_apply _ _ _
  rw [h1]
  exact pad_end_inside hle _ _ _ _ r

/-- The reference's coefficient, with its factor one, is the kernel's. -/
private theorem norm_eq_v30 (i : Cert.KernelIdeal.S1700000.Idx) :
    norm (F := Ideal) e i = val_main_v30 (F := Ideal) e i := by
  have h7 : val_main_v7 (F := Ideal) i = 1 := by
    rw [val_main_v7_apply, val_main_cst_apply]
    exact Ideal.ofBits_one_f32
  unfold Cert.KernelIdeal.KVal.norm val_main_v30 val_main_v22
  rw [g1_eq, g2_eq]
  exact (mulf_one_mulf _ _ _ i h7).symm

/-- The kernel's padded coefficient column reads the reference's broadcast coefficient on the real rows (128 columns). -/
theorem norm_pad128 (r : Fin 1700000) (j : Fin 128) :
    normp (F := Ideal) e (ix2 (Fin.castLE hle r) (0 : Fin 1)) = val_main_v40 (F := Ideal) e (ix2 r j) := by
  rw [normp_real, norm_eq_v30, val_main_v40_apply, val_main_v39_apply]
  exact congrArg (val_main_v30 (F := Ideal) e) (funext fun a => match a with | ⟨0, _⟩ => rfl)

/-- The same against the 64-column broadcast. -/
theorem norm_pad64 (r : Fin 1700000) (j : Fin 64) :
    normp (F := Ideal) e (ix2 (Fin.castLE hle r) (0 : Fin 1)) = val_main_v58 (F := Ideal) e (ix2 r j) := by
  rw [normp_real, norm_eq_v30, val_main_v58_apply, val_main_v57_apply]
  exact congrArg (val_main_v30 (F := Ideal) e) (funext fun a => match a with | ⟨0, _⟩ => rfl)

/-- From row 1700000 on the padded coefficient is zero. -/
theorem norm_pad_zero (r : Fin 1703936) (h : 1700000 ≤ r.val) :
    normp (F := Ideal) e (ix2 r (0 : Fin 1)) = 0 := by
  have h1 : normp (F := Ideal) e (ix2 r (0 : Fin 1)) = _ := cast_column_apply _ _ _
  rw [h1, pad_end_outside _ _ _ _ r h]
  exact sitofp_zero (φ := .f32)

end Cert.PadFacts

end
-- ==== Proof.Bridge.lean ====
/-
  The kernel program's value is the reference's value.

  Layer by layer both are: project the features by the weight matrix, gather the projected rows at the source
  nodes, scale each by its edge's coefficient, accumulate at the target nodes, shift by the bias (and clip at zero
  after the first layer). The projections agree because a matrix product into a zero accumulator and the host's
  contraction are the same sum at the ideal instance; the accumulations agree by the padded-against-unpadded
  step with the entrywise padding facts; the shifts agree entry by entry.
-/
import proofs.«162896_j3650722202372_1_alg».proof.Proof.KVal
import proofs.«162896_j3650722202372_1_alg».proof.Proof.RefRead
import proofs.«162896_j3650722202372_1_alg».proof.Proof.Layer
import proofs.«162896_j3650722202372_1_alg».proof.Proof.PadFacts
import proofs.«162896_j3650722202372_1_alg».proof.Proof.Stage
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.Stage
open Cert.KernelIdeal.KVal Cert.ReferenceIdeal.ReadP

/-! ## The projections -/

/-- The first projection is the reference's contraction of the features with the first weight matrix. -/
theorem proj1_eq (x : (⟨Cert.ReferenceIdeal.S100000x128, .f32⟩ : BufTy).Contents (Elt Ideal)) (w1 : (⟨Cert.ReferenceIdeal.S128x128, .f32⟩ : BufTy).Contents (Elt Ideal)) :
    proj (M := 100000) (K := 128) (N := 128) x w1 = val_main_v31 (F := Ideal) x w1 := by
  funext i
  obtain ⟨p, j, rfl⟩ : ∃ (p : Fin 100000) (j : Fin 128), i = ix2 p j := ⟨i 0, i 1, eq_ix2 i⟩
  rw [val_main_v31_apply, proj_apply]
  refine Finset.sum_congr rfl fun k _ => ?_
  have el : lidx_main_v31 (ix2 p j) k = ix2 p k :=
    funext fun a => Fin.ext (by match a with | ⟨0, _⟩ => rfl | ⟨1, _⟩ => rfl)
  have er : ridx_main_v31 (ix2 p j) k = ix2 k j :=
    funext fun a => Fin.ext (by match a with | ⟨0, _⟩ => rfl | ⟨1, _⟩ => rfl)
  rw [el, er]

/-! ## One accumulation, padded against unpadded -/

/-- The kernel's padded accumulation of scaled gathered rows of a 128-column table is the reference's unpadded one. -/
theorem agg128_eq (e : (⟨Cert.ReferenceIdeal.S2x1600000, .i32⟩ : BufTy).Contents (Elt Ideal)) (P : (⟨Cert.ReferenceIdeal.S100000x128, .f32⟩ : BufTy).Contents (Elt Ideal)) :
    agg128 (F := Ideal) e (scaleRows (gath128 (F := Ideal) e P) (normp (F := Ideal) e))
      = Host.scatterAdd (F := Ideal) (φ := .f32) Cert.ReferenceIdeal.scatter_S100000x128_S1700000x1_S1700000x128_1_0_0_1 (val_main_v42 (F := Ideal))
          (val_main_v43 (F := Ideal) e)
          (mulf (F := Ideal) (φ := .f32) (Host.gather (α := Ideal .f32) Cert.ReferenceIdeal.gather_S100000x128_S1700000x1_S1700000x128_1_0_n_n_0_1_1128 P (val_main_v37 (F := Ideal) e))
            (val_main_v40 (F := Ideal) e)) :=
  Cert.Layer.agg_pad_eq (N := 100000) (R := 1700000) (Rp := 1703936) (D := 128) Cert.PadFacts.hle (by decide)
    Cert.KernelIdeal.scatter_S100000x128_S1703936x1_S1703936x128_1_0_0_1 rfl rfl rfl rfl
    Cert.ReferenceIdeal.scatter_S100000x128_S1700000x1_S1700000x128_1_0_0_1 rfl rfl rfl rfl
    Cert.KernelIdeal.gather_S100000x128_S1703936x1_S1703936x128_1_0_n_n_0_1_1128 rfl rfl rfl rfl rfl rfl rfl
    Cert.ReferenceIdeal.gather_S100000x128_S1700000x1_S1700000x128_1_0_n_n_0_1_1128 rfl rfl rfl rfl rfl rfl rfl
    _ P _ _ _ _ _ _
    (Cert.PadFacts.col_pad128 e) (Cert.PadFacts.row_pad128 e) (Cert.PadFacts.norm_pad128 e) (Cert.PadFacts.norm_pad_zero e)

/-- The same for the 64-column table of the second layer. -/
theorem agg64_eq (e : (⟨Cert.ReferenceIdeal.S2x1600000, .i32⟩ : BufTy).Contents (Elt Ideal)) (P : (⟨Cert.ReferenceIdeal.S100000x64, .f32⟩ : BufTy).Contents (Elt Ideal)) :
    agg64 (F := Ideal) e (scaleRows (gath64 (F := Ideal) e P) (normp (F := Ideal) e))
      = Host.scatterAdd (F := Ideal) (φ := .f32) Cert.ReferenceIdeal.scatter_S100000x64_S1700000x1_S1700000x64_1_0_0_1 (val_main_v60 (F := Ideal))
          (val_main_v61 (F := Ideal) e)
          (mulf (F := Ideal) (φ := .f32) (Host.gather (α := Ideal .f32) Cert.ReferenceIdeal.gather_S100000x64_S1700000x1_S1700000x64_1_0_n_n_0_1_164 P (val_main_v55 (F := Ideal) e))
            (val_main_v58 (F := Ideal) e)) :=
  Cert.Layer.agg_pad_eq (N := 100000) (R := 1700000) (Rp := 1703936) (D := 64) Cert.PadFacts.hle (by decide)
    Cert.KernelIdeal.scatter_S100000x64_S1703936x1_S1703936x64_1_0_0_1 rfl rfl rfl rfl
    Cert.ReferenceIdeal.scatter_S100000x64_S1700000x1_S1700000x64_1_0_0_1 rfl rfl rfl rfl
    Cert.KernelIdeal.gather_S100000x64_S1703936x1_S1703936x64_1_0_n_n_0_1_164 rfl rfl rfl rfl rfl rfl rfl
    Cert.ReferenceIdeal.gather_S100000x64_S1700000x1_S1700000x64_1_0_n_n_0_1_164 rfl rfl rfl rfl rfl rfl rfl
    _ P _ _ _ _ _ _
    (Cert.PadFacts.col_pad64 e) (Cert.PadFacts.row_pad64 e) (Cert.PadFacts.norm_pad64 e) (Cert.PadFacts.norm_pad_zero e)

/-! ## The first layer -/

/-- The kernel program's hidden features are the reference's clipped first layer. -/
theorem hidden_eq (x : (⟨Cert.ReferenceIdeal.S100000x128, .f32⟩ : BufTy).Contents (Elt Ideal)) (e : (⟨Cert.ReferenceIdeal.S2x1600000, .i32⟩ : BufTy).Contents (Elt Ideal))
    (w1 : (⟨Cert.ReferenceIdeal.S128x128, .f32⟩ : BufTy).Contents (Elt Ideal)) (b1 : (⟨Cert.ReferenceIdeal.S128, .f32⟩ : BufTy).Contents (Elt Ideal)) :
    Cert.KernelIdeal.KVal.hidden x e w1 b1 = val_main_v48 (F := Ideal) x e w1 b1 := by
  unfold Cert.KernelIdeal.KVal.hidden
  rw [proj1_eq, agg128_eq]
  funext i
  obtain ⟨p, j, rfl⟩ : ∃ (p : Fin 100000) (j : Fin 128), i = ix2 p j := ⟨i 0, i 1, eq_ix2 i⟩
  rw [biasRelu_apply, val_main_v48_apply, val_main_v47_apply, val_main_v46_apply, val_main_v45_apply,
    val_main_call1_v0_apply, val_main_call1_cst_apply]
  have hb : idx_main_v45 (idx_main_v46 (ix2 p j)) = ix1 j :=
    funext fun a => Fin.ext (by match a with | ⟨0, _⟩ => rfl)
  rw [hb]
  simp only [Ideal.maximumf_def, Ideal.addf_def, Ideal.ofBits_def, Ideal.ofBits_zero_f32]
  rfl

/-! ## The second layer -/

/-- The second projection is the reference's contraction of its hidden features with the second weight matrix. -/
theorem proj2_eq (x : (⟨Cert.ReferenceIdeal.S100000x128, .f32⟩ : BufTy).Contents (Elt Ideal)) (e : (⟨Cert.ReferenceIdeal.S2x1600000, .i32⟩ : BufTy).Contents (Elt Ideal))
    (w1 : (⟨Cert.ReferenceIdeal.S128x128, .f32⟩ : BufTy).Contents (Elt Ideal)) (b1 : (⟨Cert.ReferenceIdeal.S128, .f32⟩ : BufTy).Contents (Elt Ideal)) (w2 : (⟨Cert.ReferenceIdeal.S128x64, .f32⟩ : BufTy).Contents (Elt Ideal)) :
    proj (M := 100000) (K := 128) (N := 64) (val_main_v48 (F := Ideal) x e w1 b1) w2 = val_main_v49 (F := Ideal) x e w1 b1 w2 := by
  funext i
  obtain ⟨p, j, rfl⟩ : ∃ (p : Fin 100000) (j : Fin 64), i = ix2 p j := ⟨i 0, i 1, eq_ix2 i⟩
  rw [val_main_v49_apply, proj_apply]
  refine Finset.sum_congr rfl fun k _ => ?_
  have el : lidx_main_v49 (ix2 p j) k = ix2 p k :=
    funext fun a => Fin.ext (by match a with | ⟨0, _⟩ => rfl | ⟨1, _⟩ => rfl)
  have er : ridx_main_v49 (ix2 p j) k = ix2 k j :=
    funext fun a => Fin.ext (by match a with | ⟨0, _⟩ => rfl | ⟨1, _⟩ => rfl)
  rw [el, er]

/-- The kernel program's two-layer function of the six arguments is the reference's last stage of them. -/
theorem out_eq (x : (⟨Cert.ReferenceIdeal.S100000x128, .f32⟩ : BufTy).Contents (Elt Ideal)) (e : (⟨Cert.ReferenceIdeal.S2x1600000, .i32⟩ : BufTy).Contents (Elt Ideal))
    (w1 : (⟨Cert.ReferenceIdeal.S128x128, .f32⟩ : BufTy).Contents (Elt Ideal)) (b1 : (⟨Cert.ReferenceIdeal.S128, .f32⟩ : BufTy).Contents (Elt Ideal))
    (w2 : (⟨Cert.ReferenceIdeal.S128x64, .f32⟩ : BufTy).Contents (Elt Ideal)) (b2 : (⟨Cert.ReferenceIdeal.S64, .f32⟩ : BufTy).Contents (Elt Ideal)) :
    Cert.KernelIdeal.KVal.out x e w1 b1 w2 b2 = val_main_v65 (F := Ideal) x e w1 b1 w2 b2 := by
  unfold Cert.KernelIdeal.KVal.out
  rw [hidden_eq, proj2_eq, agg64_eq]
  funext i
  obtain ⟨p, j, rfl⟩ : ∃ (p : Fin 100000) (j : Fin 64), i = ix2 p j := ⟨i 0, i 1, eq_ix2 i⟩
  rw [bias_apply, val_main_v65_apply, val_main_v64_apply, val_main_v63_apply]
  have hb : idx_main_v63 (idx_main_v64 (ix2 p j)) = ix1 j :=
    funext fun a => Fin.ext (by match a with | ⟨0, _⟩ => rfl)
  rw [hb]
  simp only [Ideal.addf_def]
  rfl

end Cert.Bridge

end
-- ==== Proof.lean ====
/-
  The certificate: the kernel program and its jnp reference compute the same two-layer graph convolution.

  Both frames of the kernel program are the generated ones. The reference's frame is its run with the result
  dropped. The idealization rewrote nothing, so there is nothing to preserve. For the value claim, the kernel
  program's run ends with its result buffer at the last boundary's contents, which read back through the six
  regions and the host stretches between them is the two-layer function `KVal.out` of the six arguments; the
  reference's run ends at its composed term, which is its last stage of the arguments; and the two are one
  function (project, gather, scale, accumulate, shift, twice; the kernel's zero padding adds zeros).
-/
import proofs.«162896_j3650722202372_1_alg».proof.Defs
import proofs.«162896_j3650722202372_1_alg».proof.Proof.Gen.Kernel
import proofs.«162896_j3650722202372_1_alg».proof.Proof.Gen.Kernel.Skeleton
import proofs.«162896_j3650722202372_1_alg».proof.Proof.Gen.Kernel.Launch
import proofs.«162896_j3650722202372_1_alg».proof.Proof.Gen.Kernel.Points
import proofs.«162896_j3650722202372_1_alg».proof.Proof.Gen.Kernel.Frame
import proofs.«162896_j3650722202372_1_alg».proof.Proof.Gen.KernelIdeal
import proofs.«162896_j3650722202372_1_alg».proof.Proof.Gen.KernelIdeal.Skeleton
import proofs.«162896_j3650722202372_1_alg».proof.Proof.Gen.KernelIdeal.Launch
import proofs.«162896_j3650722202372_1_alg».proof.Proof.Gen.KernelIdeal.Points
import proofs.«162896_j3650722202372_1_alg».proof.Proof.Gen.KernelIdeal.Frame
import proofs.«162896_j3650722202372_1_alg».proof.Proof.Gen.ReferenceIdeal
import proofs.«162896_j3650722202372_1_alg».proof.Proof.Gen.Pre_finite_inputs
import proofs.«162896_j3650722202372_1_alg».proof.Proof.KRun
import proofs.«162896_j3650722202372_1_alg».proof.Proof.KChainB
import proofs.«162896_j3650722202372_1_alg».proof.Proof.RefRun
import proofs.«162896_j3650722202372_1_alg».proof.Proof.RefRead
import proofs.«162896_j3650722202372_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : @Cert.frame_Kernel Cert.Kernel.Gen.facts Cert.Pre_finite_inputs.Gen.facts :=
  fun m ρ _ => Cert.Kernel.Gen.frame m ρ

/-- The idealized program runs and leaves its arguments unchanged. -/
theorem frame_ki : @Cert.frame_KernelIdeal Cert.KernelIdeal.Gen.facts Cert.Pre_finite_inputs.Gen.facts :=
  fun m ρ _ => Cert.KernelIdeal.Gen.frame m ρ

/-- The reference runs and leaves its arguments unchanged: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- From memories that agree on the arguments both programs end at the same result: the kernel program's result
    buffer is the two-layer function of its arguments, the reference's is its last stage of its own arguments, the
    arguments agree, and the two functions are one. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result24 m ρ c), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v65_eq, (hagree c).1, (hagree c).2.1, (hagree c).2.2.1,
      (hagree c).2.2.2.1, (hagree c).2.2.2.2.1, (hagree c).2.2.2.2.2]
    exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
